-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x93 : Shape := ⟨2, ![262144, 93]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S286x128 : Shape := ⟨2, ![286, 128]⟩
abbrev S128 : Shape := ⟨1, ![128]⟩
abbrev S256x1 : Shape := ⟨2, ![256, 1]⟩
abbrev S1 : Shape := ⟨1, ![1]⟩
abbrev S128x3 : Shape := ⟨2, ![128, 3]⟩
abbrev S3 : Shape := ⟨1, ![3]⟩
abbrev S_ : Shape := ⟨0, ![]⟩

class Facts : Prop where
  bcast_S_S262144x93 : S_.BroadcastsInDim S262144x93 (![] : Fin 0 → Fin S262144x93.rank)
  reducesTo_S262144x93_S_d0_1 : S262144x93.ReducesTo [0, 1] S_
  h_S_ : 0 < S_.numel
  bcast_S_S63x256 : S_.BroadcastsInDim S63x256 (![] : Fin 0 → Fin S63x256.rank)
  reducesTo_S63x256_S_d0_1 : S63x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S319x256 : S_.BroadcastsInDim S319x256 (![] : Fin 0 → Fin S319x256.rank)
  reducesTo_S319x256_S_d0_1 : S319x256.ReducesTo [0, 1] S_
  bcast_S_S286x128 : S_.BroadcastsInDim S286x128 (![] : Fin 0 → Fin S286x128.rank)
  reducesTo_S286x128_S_d0_1 : S286x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part7 {F : FTy → Type} [FloatOps F] (main_v118 : IVec S_ 1) (main_v119 : FVec F S3 .f32) : IVec S_ 1 :=
  let main_cst_46 : FVec F S_ .f32 := constant S_ .f32 0x7F800000#32
  let main_v120 : FVec F S3 .f32 := broadcastInDim S3 ![] bcast_S_S3 main_cst_46
  let main_v121 : IVec S3 1 := cmpf .olt main_v119 main_v120
  let main_c_47 : IVec S_ 1 := constantI S_ 1 1#1
  let main_v122 : IVec S_ 1 := (fun x v => Host.reduce IntOp.andi x v reducesTo_S3_S_d0 h_S_) main_v121 main_c_47
  let main_v123 : IVec S_ 1 := andi main_v118 main_v122
  main_v123

def fn_part6 {F : FTy → Type} [FloatOps F] (main_arg21 : FVec F S256x1 .f32) (main_arg22 : FVec F S1 .f32) (main_arg23 : FVec F S128x3 .f32) (main_arg24 : FVec F S3 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S256x1 .f32 := Host.absf main_arg21
  let main_cst_40 : FVec F S_ .f32 := constant S_ .f32 0x7F800000#32
  let main_v105 : FVec F S256x1 .f32 := broadcastInDim S256x1 ![] bcast_S_S256x1 main_cst_40
  let main_v106 : IVec S256x1 1 := cmpf .olt main_v104 main_v105
  let main_c_41 : IVec S_ 1 := constantI S_ 1 1#1
  let main_v107 : IVec S_ 1 := (fun x v => Host.reduce IntOp.andi x v reducesTo_S256x1_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  let main_v114 : FVec F S128x3 .f32 := Host.absf main_arg23
  let main_cst_44 : FVec F S_ .f32 := constant S_ .f32 0x7F800000#32
  let main_v115 : FVec F S128x3 .f32 := broadcastInDim S128x3 ![] bcast_S_S128x3 main_cst_44
  let main_v116 : IVec S128x3 1 := cmpf .olt main_v114 main_v115
  let main_c_45 : IVec S_ 1 := constantI S_ 1 1#1
  let main_v117 : IVec S_ 1 := (fun x v => Host.reduce IntOp.andi x v reducesTo_S128x3_S_d0_1 h_S_) main_v116 main_c_45
  let main_v118 : IVec S_ 1 := andi main_v113 main_v117
  let main_v119 : FVec F S3 .f32 := Host.absf main_arg24
  fn_part7 (F := F) main_v118 main_v119

def fn_part5 {F : FTy → Type} [FloatOps F] (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S286x128 .f32 := Host.absf main_arg19
  let main_cst_36 : FVec F S_ .f32 := constant S_ .f32 0x7F800000#32
  let main_v95 : FVec F S286x128 .f32 := broadcastInDim S286x128 ![] bcast_S_S286x128 main_cst_36
  let main_v96 : IVec S286x128 1 := cmpf .olt main_v94 main_v95
  let main_c_37 : IVec S_ 1 := constantI S_ 1 1#1
  let main_v97 : IVec S_ 1 := (fun x v => Host.reduce IntOp.andi x v reducesTo_S286x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_v98 main_v101 main_c_39

def fn_part4 {F : FTy → Type} [FloatOps F] (main_arg14 : FVec F S256 .f32) (main_arg15 : FVec F S256x256 .f32) (main_arg16 : FVec F S256 .f32) (main_arg17 : FVec F S256x256 .f32) (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x256 .f32 := Host.absf main_arg17
  let main_cst_32 : FVec F S_ .f32 := constant S_ .f32 0x7F800000#32
  fn_part5 (F := F) main_arg18 main_arg19 main_arg20 main_arg21 main_arg22 main_arg23 main_arg24 main_v83 main_v84 main_cst_32

def fn_part3 {F : FTy → Type} [FloatOps F] (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_arg15 main_arg16 main_arg17 main_arg18 main_arg19 main_arg20 main_arg21 main_arg22 main_arg23 main_arg24 main_v63 main_v67

def fn_part2 {F : FTy → Type} [FloatOps F] (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S319x256 .f32 := Host.absf main_arg9
  let main_cst_16 : FVec F S_ .f32 := constant S_ .f32 0x7F800000#32
  let main_v45 : FVec F S319x256 .f32 := broadcastInDim S319x256 ![] bcast_S_S319x256 main_cst_16
  let main_v46 : IVec S319x256 1 := cmpf .olt main_v44 main_v45
  let main_c_17 : IVec S_ 1 := constantI S_ 1 1#1
  let main_v47 : IVec S_ 1 := (fun x v => Host.reduce IntOp.andi x v reducesTo_S319x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S262144x93 .f32) (main_arg1 : FVec F S63x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S319x256 .f32) (main_arg10 : FVec F S256 .f32) (main_arg11 : FVec F S256x256 .f32) (main_arg12 : FVec F S256 .f32) (main_arg13 : FVec F S256x256 .f32) (main_arg14 : FVec F S256 .f32) (main_arg15 : FVec F S256x256 .f32) (main_arg16 : FVec F S256 .f32) (main_arg17 : FVec F S256x256 .f32) (main_arg18 : FVec F S256 .f32) (main_arg19 : FVec F S286x128 .f32) (main_arg20 : FVec F S128 .f32) (main_arg21 : FVec F S256x1 .f32) (main_arg22 : FVec F S1 .f32) (main_arg23 : FVec F S128x3 .f32) (main_arg24 : FVec F S3 .f32) : IVec S_ 1 :=
  let main_v0 : FVec F S262144x93 .f32 := Host.absf main_arg0
  let main_cst : FVec F S_ .f32 := constant S_ .f32 0x7F800000#32
  let main_v1 : FVec F S262144x93 .f32 := broadcastInDim S262144x93 ![] bcast_S_S262144x93 main_cst
  let main_v2 : IVec S262144x93 1 := cmpf .olt main_v0 main_v1
  let main_c : IVec S_ 1 := constantI S_ 1 1#1
  let main_v3 : IVec S_ 1 := (fun x v => Host.reduce IntOp.andi x v reducesTo_S262144x93_S_d0_1 h_S_) main_v2 main_c
  let main_v4 : FVec F S63x256 .f32 := Host.absf main_arg1
  let main_cst_0 : FVec F S_ .f32 := constant S_ .f32 0x7F800000#32
  let main_v5 : FVec F S63x256 .f32 := broadcastInDim S63x256 ![] bcast_S_S63x256 main_cst_0
  let main_v6 : IVec S63x256 1 := cmpf .olt main_v4 main_v5
  let main_c_1 : IVec S_ 1 := constantI S_ 1 1#1
  let main_v7 : IVec S_ 1 := (fun x v => Host.reduce IntOp.andi x v reducesTo_S63x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S262144x93 : Shape := ⟨2, ![262144, 93]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S286x128 : Shape := ⟨2, ![286, 128]⟩
abbrev S128 : Shape := ⟨1, ![128]⟩
abbrev S256x1 : Shape := ⟨2, ![256, 1]⟩
abbrev S1 : Shape := ⟨1, ![1]⟩
abbrev S128x3 : Shape := ⟨2, ![128, 3]⟩
abbrev S3 : Shape := ⟨1, ![3]⟩
abbrev S262144x4 : Shape := ⟨2, ![262144, 4]⟩
abbrev S1024x93 : Shape := ⟨2, ![1024, 93]⟩
abbrev S1024x4 : Shape := ⟨2, ![1024, 4]⟩
abbrev S1024x63 : Shape := ⟨2, ![1024, 63]⟩
abbrev S1024x30 : Shape := ⟨2, ![1024, 30]⟩
abbrev S1024x256 : Shape := ⟨2, ![1024, 256]⟩
abbrev S1x256 : Shape := ⟨2, ![1, 256]⟩
abbrev S1024x319 : Shape := ⟨2, ![1024, 319]⟩
abbrev S1024x1 : Shape := ⟨2, ![1024, 1]⟩
abbrev S1x1 : Shape := ⟨2, ![1, 1]⟩
abbrev S1024x286 : Shape := ⟨2, ![1024, 286]⟩
abbrev S1024x128 : Shape := ⟨2, ![1024, 128]⟩
abbrev S1x128 : Shape := ⟨2, ![1, 128]⟩
abbrev S1024x3 : Shape := ⟨2, ![1024, 3]⟩
abbrev S1x3 : Shape := ⟨2, ![1, 3]⟩

abbrev nBuf : Space → Nat
  | .hbm => 26
  | .vmem => 28
  | .smem => 0
  | _ => 0

abbrev bufTy : (tb : Table) → Fin (tcTables nBuf tb) → BufTy
  | .hbm, ⟨0, _⟩ => ⟨S262144x93, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S319x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S286x128, .f32⟩
  | .hbm, ⟨20, _⟩ => ⟨S128, .f32⟩
  | .hbm, ⟨21, _⟩ => ⟨S256x1, .f32⟩
  | .hbm, ⟨22, _⟩ => ⟨S1, .f32⟩
  | .hbm, ⟨23, _⟩ => ⟨S128x3, .f32⟩
  | .hbm, ⟨24, _⟩ => ⟨S3, .f32⟩
  | .hbm, ⟨25, _⟩ => ⟨S262144x4, .f32⟩
  | .local _ .vmem, ⟨0, _⟩ => ⟨S1024x93, .f32⟩
  | .local _ .vmem, ⟨1, _⟩ => ⟨S1024x93, .f32⟩
  | .local _ .vmem, ⟨2, _⟩ => ⟨S63x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S319x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S256x256, .f32⟩
  | .local _ .vmem, ⟨17, _⟩ => ⟨S256, .f32⟩
  | .local _ .vmem, ⟨18, _⟩ => ⟨S256x256, .f32⟩
  | .local _ .vmem, ⟨19, _⟩ => ⟨S256, .f32⟩
  | .local _ .vmem, ⟨20, _⟩ => ⟨S286x128, .f32⟩
  | .local _ .vmem, ⟨21, _⟩ => ⟨S128, .f32⟩
  | .local _ .vmem, ⟨22, _⟩ => ⟨S256x1, .f32⟩
  | .local _ .vmem, ⟨23, _⟩ => ⟨S1, .f32⟩
  | .local _ .vmem, ⟨24, _⟩ => ⟨S128x3, .f32⟩
  | .local _ .vmem, ⟨25, _⟩ => ⟨S3, .f32⟩
  | .local _ .vmem, ⟨26, _⟩ => ⟨S1024x4, .f32⟩
  | .local _ .vmem, ⟨27, _⟩ => ⟨S1024x4, .f32⟩
  | _, _ => ⟨S262144x93, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg25_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem25_1 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x93 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S63x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S319x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S286x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x3 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S3 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1024x4 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  inb_S1024x93_S1024x93_0_0 : ∀ a, (![0, 0] : Fin 2 → Nat) a + S1024x93.size a ≤ S1024x93.size a
  h_S1024x93 : 0 < S1024x93.numel
  slices_S1024x93_o0_0_S1024x63 : S1024x93.Slices ![0, 0] S1024x63
  slices_S1024x93_o0_63_S1024x30 : S1024x93.Slices ![0, 63] S1024x30
  inb_S63x256_S63x256_0_0 : ∀ a, (![0, 0] : Fin 2 → Nat) a + S63x256.size a ≤ S63x256.size a
  h_S63x256 : 0 < S63x256.numel
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  concatenates_S1024x63_S1024x256_S1024x319_d1 : Shape.Concatenates [S1024x63, S1024x256] S1024x319 1
  inb_S319x256_S319x256_0_0 : ∀ a, (![0, 0] : Fin 2 → Nat) a + S319x256.size a ≤ S319x256.size a
  h_S319x256 : 0 < S319x256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  concatenates_S1024x256_S1024x30_S1024x286_d1 : Shape.Concatenates [S1024x256, S1024x30] S1024x286 1
  inb_S286x128_S286x128_0_0 : ∀ a, (![0, 0] : Fin 2 → Nat) a + S286x128.size a ≤ S286x128.size a
  h_S286x128 : 0 < S286x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S1024x3 : S1x3.Broadcasts S1024x3
  concatenates_S1024x3_S1024x1_S1024x4_d1 : Shape.Concatenates [S1024x3, S1024x1] S1024x4 1
  inb_S1024x4_S1024x4_0_0 : ∀ a, (![0, 0] : Fin 2 → Nat) a + S1024x4.size a ≤ S1024x4.size a
  h_S1024x4 : 0 < S1024x4.numel
  dot_S1024x63_S63x256_S1024x256_1_0_0_1_n_n_wf : DotDims.WF S1024x63 S63x256 S1024x256 [1] [0] [0] [1] [] []
  dot_S1024x256_S256x256_S1024x256_1_0_0_1_n_n_wf : DotDims.WF S1024x256 S256x256 S1024x256 [1] [0] [0] [1] [] []
  dot_S1024x319_S319x256_S1024x256_1_0_0_1_n_n_wf : DotDims.WF S1024x319 S319x256 S1024x256 [1] [0] [0] [1] [] []
  dot_S1024x256_S256x1_S1024x1_1_0_0_1_n_n_wf : DotDims.WF S1024x256 S256x1 S1024x1 [1] [0] [0] [1] [] []
  dot_S1024x286_S286x128_S1024x128_1_0_0_1_n_n_wf : DotDims.WF S1024x286 S286x128 S1024x128 [1] [0] [0] [1] [] []
  dot_S1024x128_S128x3_S1024x3_1_0_0_1_n_n_wf : DotDims.WF S1024x128 S128x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x93.size a ≤ S262144x93.size a
  hwx0_0 : ∀ i : grid0.Coords, EltTy.bits .f32 = 32 ∨ (Rect.block (s := S262144x93) S1024x93.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S63x256.size a ≤ S63x256.size a
  hwx0_1 : ∀ i : grid0.Coords, EltTy.bits .f32 = 32 ∨ (Rect.block (s := S63x256) S63x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S319x256.size a ≤ S319x256.size a
  hwx0_9 : ∀ i : grid0.Coords, EltTy.bits .f32 = 32 ∨ (Rect.block (s := S319x256) S319x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .f32 = 32 ∨ (Rect.block (s := S256x256) S256x256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S256x256.size a
  hwx0_17 : ∀ i : grid0.Coords, EltTy.bits .f32 = 32 ∨ (Rect.block (s := S256x256) S256x256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S286x128.size a ≤ S286x128.size a
  hwx0_19 : ∀ i : grid0.Coords, EltTy.bits .f32 = 32 ∨ (Rect.block (s := S286x128) S286x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128.size a ≤ S128.size a
  hwx0_20 : ∀ i : grid0.Coords, EltTy.bits .f32 = 32 ∨ (Rect.block (s := S128) S128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x1.size a ≤ S256x1.size a
  hwx0_21 : ∀ i : grid0.Coords, EltTy.bits .f32 = 32 ∨ (Rect.block (s := S256x1) S256x1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1.size a ≤ S1.size a
  hwx0_22 : ∀ i : grid0.Coords, EltTy.bits .f32 = 32 ∨ (Rect.block (s := S1) S1.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S128x3.size a ≤ S128x3.size a
  hwx0_23 : ∀ i : grid0.Coords, EltTy.bits .f32 = 32 ∨ (Rect.block (s := S128x3) S128x3.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S3.size a ≤ S3.size a
  hwx0_24 : ∀ i : grid0.Coords, EltTy.bits .f32 = 32 ∨ (Rect.block (s := S3) S3.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1024x4.size a ≤ S262144x4.size a
  hwx0_25 : ∀ i : grid0.Coords, EltTy.bits .f32 = 32 ∨ (Rect.block (s := S262144x4) S1024x4.size (cc0_transform_25 i) (hinb0_25 i)).WholeWords (EltTy.packing .f32)

variable [Facts₀]

def dot_S1024x63_S63x256_S1024x256_1_0_0_1_n_n : DotDims S1024x63 S63x256 S1024x256 where
  lhsContracting := [1]
  rhsContracting := [0]
  lhsNonContracting := [0]
  rhsNonContracting := [1]
  lhsBatch := []
  rhsBatch := []
  wf := dot_S1024x63_S63x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x319_S319x256_S1024x256_1_0_0_1_n_n : DotDims S1024x319 S319x256 S1024x256 where
  lhsContracting := [1]
  rhsContracting := [0]
  lhsNonContracting := [0]
  rhsNonContracting := [1]
  lhsBatch := []
  rhsBatch := []
  wf := dot_S1024x319_S319x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S1024x286_S286x128_S1024x128_1_0_0_1_n_n : DotDims S1024x286 S286x128 S1024x128 where
  lhsContracting := [1]
  rhsContracting := [0]
  lhsNonContracting := [0]
  rhsNonContracting := [1]
  lhsBatch := []
  rhsBatch := []
  wf := dot_S1024x286_S286x128_S1024x128_1_0_0_1_n_n_wf
def dot_S1024x128_S128x3_S1024x3_1_0_0_1_n_n : DotDims S1024x128 S128x3 S1024x3 where
  lhsContracting := [1]
  rhsContracting := [0]
  lhsNonContracting := [0]
  rhsNonContracting := [1]
  lhsBatch := []
  rhsBatch := []
  wf := dot_S1024x128_S128x3_S1024x3_1_0_0_1_n_n_wf

abbrev win0_0 : Pipeline.Window sig grid0 :=
  Pipeline.Window.ofSpec (Memref.whole main_arg0) S1024x93.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S63x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S319x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S286x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S256x1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S128x3.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S3.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v0) S1024x4.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S262144x93 : Shape := ⟨2, ![262144, 93]⟩
abbrev S63x256 : Shape := ⟨2, ![63, 256]⟩
abbrev S256 : Shape := ⟨1, ![256]⟩
abbrev S256x256 : Shape := ⟨2, ![256, 256]⟩
abbrev S319x256 : Shape := ⟨2, ![319, 256]⟩
abbrev S286x128 : Shape := ⟨2, ![286, 128]⟩
abbrev S128 : Shape := ⟨1, ![128]⟩
abbrev S256x1 : Shape := ⟨2, ![256, 1]⟩
abbrev S1 : Shape := ⟨1, ![1]⟩
abbrev S128x3 : Shape := ⟨2, ![128, 3]⟩
abbrev S3 : Shape := ⟨1, ![3]⟩
abbrev S262144x63 : Shape := ⟨2, ![262144, 63]⟩
abbrev S262144x30 : Shape := ⟨2, ![262144, 30]⟩
abbrev S262144x256 : Shape := ⟨2, ![262144, 256]⟩
abbrev S1x256 : Shape := ⟨2, ![1, 256]⟩
abbrev S_ : Shape := ⟨0, ![]⟩
abbrev S262144x319 : Shape := ⟨2, ![262144, 319]⟩
abbrev S262144x1 : Shape := ⟨2, ![262144, 1]⟩
abbrev S1x1 : Shape := ⟨2, ![1, 1]⟩
abbrev S262144x286 : Shape := ⟨2, ![262144, 286]⟩
abbrev S262144x128 : Shape := ⟨2, ![262144, 128]⟩
abbrev S1x128 : Shape := ⟨2, ![1, 128]⟩
abbrev S262144x3 : Shape := ⟨2, ![262144, 3]⟩
abbrev S1x3 : Shape := ⟨2, ![1, 3]⟩
abbrev S262144x4 : Shape := ⟨2, ![262144, 4]⟩

abbrev nBuf : Space → Nat
  | .hbm => 113
  | .vmem => 0
  | .smem => 0
  | _ => 0

abbrev bufTy : (tb : Table) → Fin (tcTables nBuf tb) → BufTy
  | .hbm, ⟨0, _⟩ => ⟨S262144x93, .f32⟩
  | .hbm, ⟨1, _⟩ => ⟨S63x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S319x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S286x128, .f32⟩
  | .hbm, ⟨20, _⟩ => ⟨S128, .f32⟩
  | .hbm, ⟨21, _⟩ => ⟨S256x1, .f32⟩
  | .hbm, ⟨22, _⟩ => ⟨S1, .f32⟩
  | .hbm, ⟨23, _⟩ => ⟨S128x3, .f32⟩
  | .hbm, ⟨24, _⟩ => ⟨S3, .f32⟩
  | .hbm, ⟨25, _⟩ => ⟨S262144x63, .f32⟩
  | .hbm, ⟨26, _⟩ => ⟨S262144x30, .f32⟩
  | .hbm, ⟨27, _⟩ => ⟨S262144x256, .f32⟩
  | .hbm, ⟨28, _⟩ => ⟨S1x256, .f32⟩
  | .hbm, ⟨29, _⟩ => ⟨S262144x256, .f32⟩
  | .hbm, ⟨30, _⟩ => ⟨S262144x256, .f32⟩
  | .hbm, ⟨31, _⟩ => ⟨S_, .f32⟩
  | .hbm, ⟨32, _⟩ => ⟨S262144x256, .f32⟩
  | .hbm, ⟨33, _⟩ => ⟨S262144x256, .f32⟩
  | .hbm, ⟨34, _⟩ => ⟨S262144x256, .f32⟩
  | .hbm, ⟨35, _⟩ => ⟨S1x256, .f32⟩
  | .hbm, ⟨36, _⟩ => ⟨S262144x256, .f32⟩
  | .hbm, ⟨37, _⟩ => ⟨S262144x256, .f32⟩
  | .hbm, ⟨38, _⟩ => ⟨S_, .f32⟩
  | .hbm, ⟨39, _⟩ => ⟨S262144x256, .f32⟩
  | .hbm, ⟨40, _⟩ => ⟨S262144x256, .f32⟩
  | .hbm, ⟨41, _⟩ => ⟨S262144x256, .f32⟩
  | .hbm, ⟨42, _⟩ => ⟨S1x256, .f32⟩
  | .hbm, ⟨43, _⟩ => ⟨S262144x256, .f32⟩
  | .hbm, ⟨44, _⟩ => ⟨S262144x256, .f32⟩
  | .hbm, ⟨45, _⟩ => ⟨S_, .f32⟩
  | .hbm, ⟨46, _⟩ => ⟨S262144x256, .f32⟩
  | .hbm, ⟨47, _⟩ => ⟨S262144x256, .f32⟩
  | .hbm, ⟨48, _⟩ => ⟨S262144x256, .f32⟩
  | .hbm, ⟨49, _⟩ => ⟨S1x256, .f32⟩
  | .hbm, ⟨50, _⟩ => ⟨S262144x256, .f32⟩
  | .hbm, ⟨51, _⟩ => ⟨S262144x256, .f32⟩
  | .hbm, ⟨52, _⟩ => ⟨S_, .f32⟩
  | .hbm, ⟨53, _⟩ => ⟨S262144x256, .f32⟩
  | .hbm, ⟨54, _⟩ => ⟨S262144x256, .f32⟩
  | .hbm, ⟨55, _⟩ => ⟨S262144x319, .f32⟩
  | .hbm, ⟨56, _⟩ => ⟨S262144x256, .f32⟩
  | .hbm, ⟨57, _⟩ => ⟨S1x256, .f32⟩
  | .hbm, ⟨58, _⟩ => ⟨S262144x256, .f32⟩
  | .hbm, ⟨59, _⟩ => ⟨S262144x256, .f32⟩
  | .hbm, ⟨60, _⟩ => ⟨S_, .f32⟩
  | .hbm, ⟨61, _⟩ => ⟨S262144x256, .f32⟩
  | .hbm, ⟨62, _⟩ => ⟨S262144x256, .f32⟩
  | .hbm, ⟨63, _⟩ => ⟨S262144x256, .f32⟩
  | .hbm, ⟨64, _⟩ => ⟨S1x256, .f32⟩
  | .hbm, ⟨65, _⟩ => ⟨S262144x256, .f32⟩
  | .hbm, ⟨66, _⟩ => ⟨S262144x256, .f32⟩
  | .hbm, ⟨67, _⟩ => ⟨S_, .f32⟩
  | .hbm, ⟨68, _⟩ => ⟨S262144x256, .f32⟩
  | .hbm, ⟨69, _⟩ => ⟨S262144x256, .f32⟩
  | .hbm, ⟨70, _⟩ => ⟨S262144x256, .f32⟩
  | .hbm, ⟨71, _⟩ => ⟨S1x256, .f32⟩
  | .hbm, ⟨72, _⟩ => ⟨S262144x256, .f32⟩
  | .hbm, ⟨73, _⟩ => ⟨S262144x256, .f32⟩
  | .hbm, ⟨74, _⟩ => ⟨S_, .f32⟩
  | .hbm, ⟨75, _⟩ => ⟨S262144x256, .f32⟩
  | .hbm, ⟨76, _⟩ => ⟨S262144x256, .f32⟩
  | .hbm, ⟨77, _⟩ => ⟨S262144x256, .f32⟩
  | .hbm, ⟨78, _⟩ => ⟨S1x256, .f32⟩
  | .hbm, ⟨79, _⟩ => ⟨S262144x256, .f32⟩
  | .hbm, ⟨80, _⟩ => ⟨S262144x256, .f32⟩
  | .hbm, ⟨81, _⟩ => ⟨S_, .f32⟩
  | .hbm, ⟨82, _⟩ => ⟨S262144x256, .f32⟩
  | .hbm, ⟨83, _⟩ => ⟨S262144x256, .f32⟩
  | .hbm, ⟨84, _⟩ => ⟨S262144x1, .f32⟩
  | .hbm, ⟨85, _⟩ => ⟨S1x1, .f32⟩
  | .hbm, ⟨86, _⟩ => ⟨S262144x1, .f32⟩
  | .hbm, ⟨87, _⟩ => ⟨S262144x1, .f32⟩
  | .hbm, ⟨88, _⟩ => ⟨S262144x256, .f32⟩
  | .hbm, ⟨89, _⟩ => ⟨S1x256, .f32⟩
  | .hbm, ⟨90, _⟩ => ⟨S262144x256, .f32⟩
  | .hbm, ⟨91, _⟩ => ⟨S262144x256, .f32⟩
  | .hbm, ⟨92, _⟩ => ⟨S262144x286, .f32⟩
  | .hbm, ⟨93, _⟩ => ⟨S262144x128, .f32⟩
  | .hbm, ⟨94, _⟩ => ⟨S1x128, .f32⟩
  | .hbm, ⟨95, _⟩ => ⟨S262144x128, .f32⟩
  | .hbm, ⟨96, _⟩ => ⟨S262144x128, .f32⟩
  | .hbm, ⟨97, _⟩ => ⟨S_, .f32⟩
  | .hbm, ⟨98, _⟩ => ⟨S262144x128, .f32⟩
  | .hbm, ⟨99, _⟩ => ⟨S262144x128, .f32⟩
  | .hbm, ⟨100, _⟩ => ⟨S262144x3, .f32⟩
  | .hbm, ⟨101, _⟩ => ⟨S1x3, .f32⟩
  | .hbm, ⟨102, _⟩ => ⟨S262144x3, .f32⟩
  | .hbm, ⟨103, _⟩ => ⟨S262144x3, .f32⟩
  | .hbm, ⟨104, _⟩ => ⟨S262144x3, .f32⟩
  | .hbm, ⟨105, _⟩ => ⟨S262144x3, .f32⟩
  | .hbm, ⟨106, _⟩ => ⟨S_, .f32⟩
  | .hbm, ⟨107, _⟩ => ⟨S262144x3, .f32⟩
  | .hbm, ⟨108, _⟩ => ⟨S262144x3, .f32⟩
  | .hbm, ⟨109, _⟩ => ⟨S_, .f32⟩
  | .hbm, ⟨110, _⟩ => ⟨S262144x3, .f32⟩
  | .hbm, ⟨111, _⟩ => ⟨S262144x3, .f32⟩
  | .hbm, ⟨112, _⟩ => ⟨S262144x4, .f32⟩
  | _, _ => ⟨S262144x93, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_call0_cst : Ref sig .tc := ⟨.hbm, 31, rfl⟩
abbrev main_call0_v0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call1_cst : Ref sig .tc := ⟨.hbm, 38, rfl⟩
abbrev main_call1_v0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_call2_cst : Ref sig .tc := ⟨.hbm, 45, rfl⟩
abbrev main_call2_v0 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_call3_cst : Ref sig .tc := ⟨.hbm, 52, rfl⟩
abbrev main_call3_v0 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_call4_cst : Ref sig .tc := ⟨.hbm, 60, rfl⟩
abbrev main_call4_v0 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call5_cst : Ref sig .tc := ⟨.hbm, 67, rfl⟩
abbrev main_call5_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call6_cst : Ref sig .tc := ⟨.hbm, 74, rfl⟩
abbrev main_call6_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_call7_cst : Ref sig .tc := ⟨.hbm, 81, rfl⟩
abbrev main_call7_v0 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call8_cst : Ref sig .tc := ⟨.hbm, 97, rfl⟩
abbrev main_call8_v0 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst : Ref sig .tc := ⟨.hbm, 106, rfl⟩
abbrev main_v63 : Ref sig .tc := ⟨.hbm, 107, rfl⟩
abbrev main_v64 : Ref sig .tc := ⟨.hbm, 108, rfl⟩
abbrev main_cst_0 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩

abbrev nD : Nat := 1
abbrev τ : Topo := Topo.v7x

variable {F : FTy → Type} [FloatOps F]

class Facts₀ : Prop where
  slices_S262144x93_S262144x63_0_0 : S262144x93.Slices ![0, 0] S262144x63
  slices_S262144x93_S262144x30_0_63 : S262144x93.Slices ![0, 63] S262144x30
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  concatenates_S262144x63_S262144x256_S262144x319_d1 : Shape.Concatenates [S262144x63, S262144x256] S262144x319 1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  concatenates_S262144x256_S262144x30_S262144x286_d1 : Shape.Concatenates [S262144x256, S262144x30] S262144x286 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  bcast_S_S262144x3 : S_.BroadcastsInDim S262144x3 (![] : Fin 0 → Fin S262144x3.rank)
  concatenates_S262144x3_S262144x1_S262144x4_d1 : Shape.Concatenates [S262144x3, S262144x1] S262144x4 1
  dot_S262144x63_S63x256_S262144x256_1_0_0_1_n_n_wf : DotDims.WF S262144x63 S63x256 S262144x256 [1] [0] [0] [1] [] []
  dot_S262144x256_S256x256_S262144x256_1_0_0_1_n_n_wf : DotDims.WF S262144x256 S256x256 S262144x256 [1] [0] [0] [1] [] []
  dot_S262144x319_S319x256_S262144x256_1_0_0_1_n_n_wf : DotDims.WF S262144x319 S319x256 S262144x256 [1] [0] [0] [1] [] []
  dot_S262144x256_S256x1_S262144x1_1_0_0_1_n_n_wf : DotDims.WF S262144x256 S256x1 S262144x1 [1] [0] [0] [1] [] []
  dot_S262144x286_S286x128_S262144x128_1_0_0_1_n_n_wf : DotDims.WF S262144x286 S286x128 S262144x128 [1] [0] [0] [1] [] []
  dot_S262144x128_S128x3_S262144x3_1_0_0_1_n_n_wf : DotDims.WF S262144x128 S128x3 S262144x3 [1] [0] [0] [1] [] []

variable [Facts₀]

def dot_S262144x63_S63x256_S262144x256_1_0_0_1_n_n : DotDims S262144x63 S63x256 S262144x256 where
  lhsContracting := [1]
  rhsContracting := [0]
  lhsNonContracting := [0]
  rhsNonContracting := [1]
  lhsBatch := []
  rhsBatch := []
  wf := dot_S262144x63_S63x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x319_S319x256_S262144x256_1_0_0_1_n_n : DotDims S262144x319 S319x256 S262144x256 where
  lhsContracting := [1]
  rhsContracting := [0]
  lhsNonContracting := [0]
  rhsNonContracting := [1]
  lhsBatch := []
  rhsBatch := []
  wf := dot_S262144x319_S319x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf
def dot_S262144x286_S286x128_S262144x128_1_0_0_1_n_n : DotDims S262144x286 S286x128 S262144x128 where
  lhsContracting := [1]
  rhsContracting := [0]
  lhsNonContracting := [0]
  rhsNonContracting := [1]
  lhsBatch := []
  rhsBatch := []
  wf := dot_S262144x286_S286x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.LibRows.lean ====
/-
  Rank-2 arrays read ROW BY ROW at the ideal values.

  A network of dense layers treats every row of its input alone: row `p` of a matrix product is the row `p` of the
  left operand times the right operand, a bias is added to every row, an activation works entry by entry, and two
  arrays joined along the columns are joined row by row. This file says so for the vector operations a kernel
  body uses (`matmul` into the zero accumulator, `broadcastTo` of a `shapeCast`, `concatenate`,
  `extractStridedSlice`) and for the host's (`Host.dotGeneral`, `broadcastInDim`), for any number of rows, so that a
  block of rows and the whole array are read by the same lemmas.

  `PlainDot d` collects what a dot's dimension numbers must satisfy to be the plain product "rows of the left times
  columns of the right": one contracted axis of the right extent, and the four coordinate facts of its operand indices.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

noncomputable section

namespace Cert.Rows

open Idealize.ShloMosaic Idealize.ShloMosaic.ValueIdx

/-! ## Rows, and the row functions of a dense network -/

/-- Row `r` of a rank-2 array, as a function of the column. -/
def rowOf {N K : Nat} (x : (⟨2, ![N, K]⟩ : Shape).Idx → EReal) (r : Fin N) : Fin K → EReal := fun k => x (ix2 r k)

/-- A rank-2 array as a function of row and column. -/
def mat {K M : Nat} (w : (⟨2, ![K, M]⟩ : Shape).Idx → EReal) : Fin K → Fin M → EReal := fun k j => w (ix2 k j)

/-- A rank-1 array as a function of its coordinate. -/
def vec {M : Nat} (b : (⟨1, ![M]⟩ : Shape).Idx → EReal) : Fin M → EReal := fun j => b (ix1 j)

/-- A row times a matrix. -/
def rowMul {K M : Nat} (h : Fin K → EReal) (w : Fin K → Fin M → EReal) : Fin M → EReal :=
  fun j => ∑ k : Fin K, h k * w k j

/-- One dense layer on a row: the row times the matrix, plus the bias. -/
def dense {K M : Nat} (h : Fin K → EReal) (w : Fin K → Fin M → EReal) (b : Fin M → EReal) : Fin M → EReal :=
  fun j => rowMul h w j + b j

/-- The activation: the maximum with zero, entry by entry. -/
def relu {M : Nat} (h : Fin M → EReal) : Fin M → EReal := fun j => max (h j) 0

/-- Two rows joined end to end. -/
def cat {A B : Nat} (C : Nat) (hC : A + B = C) (a : Fin A → EReal) (b : Fin B → EReal) : Fin C → EReal :=
  fun k => if h : k.val < A then a ⟨k.val, h⟩ else b ⟨k.val - A, by omega⟩

/-- The entries `off, off + 1, …, off + B - 1` of a row. -/
def cols {A : Nat} (B off : Nat) (hB : off + B ≤ A) (x : Fin A → EReal) : Fin B → EReal :=
  fun k => x ⟨off + k.val, by omega⟩

/-! ## A plain matrix product, by rows -/

section Dot

variable {N K M : Nat} (d : DotDims ⟨2, ![N, K]⟩ ⟨2, ![K, M]⟩ ⟨2, ![N, M]⟩)

/-- The dimension numbers of the plain product: the left operand's columns are contracted against the right operand's
    rows; an output index (r, c) reads the left operand at (r, k) and the right at (k, c). -/
structure PlainDot : Prop where
  rank : d.contr.rank = 1
  size : d.contr.size ⟨0, by omega⟩ = K
  l0 : ∀ (i : (⟨2, ![N, M]⟩ : Shape).Idx) (q : d.contr.Idx), (d.lhsIdx i q 0).val = (i 0).val
  l1 : ∀ (i : (⟨2, ![N, M]⟩ : Shape).Idx) (q : d.contr.Idx), (d.lhsIdx i q 1).val = (q ⟨0, by omega⟩).val
  r0 : ∀ (i : (⟨2, ![N, M]⟩ : Shape).Idx) (q : d.contr.Idx), (d.rhsIdx i q 0).val = (q ⟨0, by omega⟩).val
  r1 : ∀ (i : (⟨2, ![N, M]⟩ : Shape).Idx) (q : d.contr.Idx), (d.rhsIdx i q 1).val = (i 1).val

variable {d}

/-- The contraction's sum at output index (p, q), re-indexed by the one contracted coordinate. -/
theorem PlainDot.sum_rows (hd : PlainDot d) (l : (⟨2, ![N, K]⟩ : Shape).Idx → EReal) (r : (⟨2, ![K, M]⟩ : Shape).Idx → EReal)
    (p : Fin N) (q : Fin M) :
    ∑ k : d.contr.Idx, l (d.lhsIdx (ix2 p q) k) * r (d.rhsIdx (ix2 p q) k) = rowMul (rowOf l p) (mat r) q := by
  unfold rowMul rowOf mat
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- Row `p` of a kernel's matrix product into the zero accumulator is row `p` of the left operand times the right
    operand, whatever the operands' float formats. -/
theorem PlainDot.matmul_row (hd : PlainDot d) {φ₁ φ₂ : FTy} (prec : Option ContractPrecision)
    (l : FVec Ideal ⟨2, ![N, K]⟩ φ₁) (r : FVec Ideal ⟨2, ![K, M]⟩ φ₂) (p : Fin N) :
    rowOf (matmul d prec l r (constant ⟨2, ![N, M]⟩ .f32 0x00000000#32)) p = rowMul (rowOf l p) (mat r) := by
  funext q
  show FloatOps.matmul d prec l r (constant ⟨2, ![N, M]⟩ .f32 0x00000000#32) (ix2 p q) = _
  rw [Ideal.matmul_constant_zero_apply]
  exact hd.sum_rows l r p q

/-- Row `p` of the host's `dot_general` is the same product. -/
theorem PlainDot.dotGeneral_row (hd : PlainDot d) {φ₁ φ₂ : FTy} (prec : Option ContractPrecision)
    (l : FVec Ideal ⟨2, ![N, K]⟩ φ₁) (r : FVec Ideal ⟨2, ![K, M]⟩ φ₂) (p : Fin N) :
    rowOf (Host.dotGeneral d prec l r) p = rowMul (rowOf l p) (mat r) := by
  funext q
  show Host.dotGeneral d prec l r (ix2 p q) = _
  simp only [Host.dotGeneral]
  rw [Ideal.dotGeneral_apply]
  exact hd.sum_rows l r p q

end Dot

/-! ## Entry-by-entry operations, by rows -/

section Pointwise

variable {N M : Nat}

theorem addf_row (a b : FVec Ideal ⟨2, ![N, M]⟩ .f32) (p : Fin N) :
    rowOf (addf a b) p = fun j => rowOf a p j + rowOf b p j := rfl

theorem maximumf_row (a b : FVec Ideal ⟨2, ![N, M]⟩ .f32) (p : Fin N) :
    rowOf (maximumf a b) p = fun j => max (rowOf a p j) (rowOf b p j) := rfl

theorem truncf_row {φ ψ : FTy} (a : FVec Ideal ⟨2, ![N, M]⟩ φ) (h : ψ.bits < φ.bits) (p : Fin N) :
    rowOf (truncf ψ a h : FVec Ideal ⟨2, ![N, M]⟩ ψ) p = rowOf a p := rfl

theorem logistic_row (a : FVec Ideal ⟨2, ![N, M]⟩ .f32) (p : Fin N) :
    rowOf (logistic a) p = fun j => Ideal.logistic (rowOf a p j) := rfl

/-- A splat of the zero word is the zero row. -/
theorem broadcast_zero_row (p : Fin N) :
    rowOf (broadcast ⟨2, ![N, M]⟩ (Scalar.ofBits (F := Ideal) .f32 0x00000000#32)) p = fun _ => 0 := by
  funext j
  show Ideal.ofBits .f32 0x00000000#32 = 0
  exact Ideal.ofBits_zero_f32

end Pointwise

/-! ## The bias added to every row -/

/-- A kernel's bias: the rank-1 array cast to one row and broadcast over the rows. -/
theorem bias_cast_row {N M : Nat} (b : (⟨1, ![M]⟩ : Shape).Idx → EReal) (hc : (⟨1, ![M]⟩ : Shape).ShapeCasts ⟨2, ![1, M]⟩)
    (hb : (⟨2, ![1, M]⟩ : Shape).Broadcasts ⟨2, ![N, M]⟩) (p : Fin N) :
    rowOf (broadcastTo ⟨2, ![N, M]⟩ (shapeCast ⟨2, ![1, M]⟩ b hc) hb) p = vec b := by
  funext j
  exact (broadcastTo_1b_ab_apply _ hb p j).trans (shapeCast_a_1a_apply b hc 0 j)

/-- The host's bias: two `broadcast_in_dim`s, to one row and then over the rows. -/
theorem bias_inDim_row {N M : Nat} (b : (⟨1, ![M]⟩ : Shape).Idx → EReal)
    (h1 : (⟨1, ![M]⟩ : Shape).BroadcastsInDim ⟨2, ![1, M]⟩ ![1])
    (h2 : (⟨2, ![1, M]⟩ : Shape).BroadcastsInDim ⟨2, ![N, M]⟩ ![0, 1]) (p : Fin N) :
    rowOf (broadcastInDim ⟨2, ![N, M]⟩ ![0, 1] h2 (broadcastInDim ⟨2, ![1, M]⟩ ![1] h1 b)) p = vec b := by
  funext j
  refine (broadcastInDim_apply _ h2 _ (ix2 p j) (ix2 (0 : Fin 1) j) fun a => ?_).trans
    (broadcastInDim_apply _ h1 b (ix2 (0 : Fin 1) j) (ix1 j) fun a => ?_)
  · match a with
    | ⟨0, _⟩ => show 0 = if (1 : Nat) = 1 then 0 else p.val; rw [if_pos rfl]
    | ⟨1, _⟩ =>
      show j.val = if M = 1 then 0 else j.val
      split
      · have := j.isLt; omega
      · rfl
  · match a with
    | ⟨0, _⟩ =>
      show j.val = if M = 1 then 0 else j.val
      split
      · have := j.isLt; omega
      · rfl

/-- The host's splat of a scalar constant reads that constant everywhere. -/
theorem splat_apply {S : Shape} (w : BitVec 32) (h : (⟨0, ![]⟩ : Shape).BroadcastsInDim S ![]) (i : S.Idx) :
    broadcastInDim S ![] h (constant (F := Ideal) ⟨0, ![]⟩ .f32 w) i = Ideal.ofBits .f32 w :=
  broadcastInDim_apply _ h _ i ix0 fun a => a.elim0

/-! ## Columns taken out and arrays joined along the columns, by rows -/

/-- Row `p` of a slice of columns is those columns of row `p`. -/
theorem slice_cols_row {N A B : Nat} (off : Nat) (hB : off + B ≤ A) (x : (⟨2, ![N, A]⟩ : Shape).Idx → EReal)
    (h : (⟨2, ![N, A]⟩ : Shape).Slices ![0, off] ⟨2, ![N, B]⟩) (p : Fin N) :
    rowOf (extractStridedSlice ⟨2, ![N, B]⟩ ![0, off] x h) p = cols B off hB (rowOf x p) := by
  funext k
  exact slice2_axis1_eq off x h p k

/-- Row `p` of two arrays joined along the columns is their rows `p` joined. -/
theorem concat_cols_row {N A B : Nat} (C : Nat) (hC : A + B = C) (a : (⟨2, ![N, A]⟩ : Shape).Idx → EReal)
    (b : (⟨2, ![N, B]⟩ : Shape).Idx → EReal)
    (h : Shape.Concatenates [(⟨2, ![N, A]⟩ : Shape), ⟨2, ![N, B]⟩] ⟨2, ![N, C]⟩ 1) (p : Fin N) :
    rowOf (concatenate ⟨2, ![N, C]⟩ 1 [⟨⟨2, ![N, A]⟩, a⟩, ⟨⟨2, ![N, B]⟩, b⟩] h) p = cat C hC (rowOf a p) (rowOf b p) := by
  funext k
  unfold cat rowOf
  by_cases hk : k.val < A
  · rw [dif_pos hk]
    exact concatenate_pair_apply_left 1 a b h (ix2 p k) rfl (ix2 p ⟨k.val, hk⟩)
      (fun bx => match bx with | ⟨0, _⟩ => rfl | ⟨1, _⟩ => rfl)
  · rw [dif_neg hk]
    exact concatenate_pair_apply_right 1 a b h (ix2 p k) rfl rfl (ix2 p ⟨k.val - A, by omega⟩)
      (fun bx hb => match bx with | ⟨0, _⟩ => rfl | ⟨1, _⟩ => absurd rfl hb)
      (by show (k.val - A) + A = k.val; omega)

/-! ## Whole layers, by rows -/

section Layers

variable {N K M : Nat} {d : DotDims ⟨2, ![N, K]⟩ ⟨2, ![K, M]⟩ ⟨2, ![N, M]⟩}

/-- A kernel's dense layer — the product into the zero accumulator plus the broadcast bias — is, on row `p`, the dense
    layer of row `p`. -/
theorem PlainDot.kernel_dense_row (hd : PlainDot d) {φ₁ φ₂ : FTy} (prec : Option ContractPrecision)
    (l : FVec Ideal ⟨2, ![N, K]⟩ φ₁) (r : FVec Ideal ⟨2, ![K, M]⟩ φ₂) (b : FVec Ideal ⟨1, ![M]⟩ .f32)
    (hc : (⟨1, ![M]⟩ : Shape).ShapeCasts ⟨2, ![1, M]⟩) (hb : (⟨2, ![1, M]⟩ : Shape).Broadcasts ⟨2, ![N, M]⟩) (p : Fin N) :
    rowOf (addf (matmul d prec l r (constant ⟨2, ![N, M]⟩ .f32 0x00000000#32))
        (broadcastTo ⟨2, ![N, M]⟩ (shapeCast ⟨2, ![1, M]⟩ b hc) hb)) p
      = dense (rowOf l p) (mat r) (vec b) := by
  rw [addf_row, hd.matmul_row, bias_cast_row]
  rfl

/-- The host's dense layer, the same. -/
theorem PlainDot.host_dense_row (hd : PlainDot d) {φ₁ φ₂ : FTy} (prec : Option ContractPrecision)
    (l : FVec Ideal ⟨2, ![N, K]⟩ φ₁) (r : FVec Ideal ⟨2, ![K, M]⟩ φ₂) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![N, M]⟩ ![0, 1]) (p : Fin N) :
    rowOf (addf (Host.dotGeneral d prec l r)
        (broadcastInDim ⟨2, ![N, M]⟩ ![0, 1] h2 (broadcastInDim ⟨2, ![1, M]⟩ ![1] h1 b))) p
      = dense (rowOf l p) (mat r) (vec b) := by
  rw [addf_row, hd.dotGeneral_row, bias_inDim_row]
  rfl

/-- A kernel's activation: the maximum with the splat of the zero word. -/
theorem kernel_relu_row {N M : Nat} (a : FVec Ideal ⟨2, ![N, M]⟩ .f32) (p : Fin N) :
    rowOf (maximumf a (broadcast ⟨2, ![N, M]⟩ (Scalar.ofBits (F := Ideal) .f32 0x00000000#32))) p = relu (rowOf a p) := by
  rw [maximumf_row, broadcast_zero_row]
  rfl

/-- The host's activation: the maximum with the broadcast zero constant. -/
theorem host_relu_row {N M : Nat} (a : FVec Ideal ⟨2, ![N, M]⟩ .f32)
    (h0 : (⟨0, ![]⟩ : Shape).BroadcastsInDim ⟨2, ![N, M]⟩ ![]) (p : Fin N) :
    rowOf (maximumf a (broadcastInDim ⟨2, ![N, M]⟩ ![] h0 (constant (F := Ideal) ⟨0, ![]⟩ .f32 0x00000000#32))) p
      = relu (rowOf a p) := by
  funext j
  show max (a (ix2 p j)) (broadcastInDim ⟨2, ![N, M]⟩ ![] h0 (constant (F := Ideal) ⟨0, ![]⟩ .f32 0x00000000#32) (ix2 p j)) = _
  rw [splat_apply, Ideal.ofBits_zero_f32]
  rfl

/-- The host's logistic function spelt out — one over one plus the exponential of the negation, the ones broadcast
    constants — is the logistic function on every entry. -/
theorem host_logistic_row {N M : Nat} (a : FVec Ideal ⟨2, ![N, M]⟩ .f32)
    (h0 : (⟨0, ![]⟩ : Shape).BroadcastsInDim ⟨2, ![N, M]⟩ ![]) (p : Fin N) :
    rowOf (Host.divf (broadcastInDim ⟨2, ![N, M]⟩ ![] h0 (constant (F := Ideal) ⟨0, ![]⟩ .f32 0x3F800000#32))
        (addf (broadcastInDim ⟨2, ![N, M]⟩ ![] h0 (constant (F := Ideal) ⟨0, ![]⟩ .f32 0x3F800000#32))
          (Host.exp (Host.negf a)))) p
      = fun j => Ideal.logistic (rowOf a p j) := by
  funext j
  show Ideal.div (broadcastInDim ⟨2, ![N, M]⟩ ![] h0 (constant (F := Ideal) ⟨0, ![]⟩ .f32 0x3F800000#32) (ix2 p j))
      (broadcastInDim ⟨2, ![N, M]⟩ ![] h0 (constant (F := Ideal) ⟨0, ![]⟩ .f32 0x3F800000#32) (ix2 p j)
        + Ideal.exp (-(a (ix2 p j)))) = _
  rw [splat_apply, Ideal.ofBits_one_f32]
  rfl

/-- A whole activated layer of a kernel, when row `p` of its input is already known to be `hrow`. -/
theorem PlainDot.kernel_layer_row (hd : PlainDot d) {φ₁ φ₂ : FTy} (prec : Option ContractPrecision)
    (l : FVec Ideal ⟨2, ![N, K]⟩ φ₁) (r : FVec Ideal ⟨2, ![K, M]⟩ φ₂) (b : FVec Ideal ⟨1, ![M]⟩ .f32)
    (hc : (⟨1, ![M]⟩ : Shape).ShapeCasts ⟨2, ![1, M]⟩) (hb : (⟨2, ![1, M]⟩ : Shape).Broadcasts ⟨2, ![N, M]⟩) (p : Fin N)
    (hrow : Fin K → EReal) (hl : rowOf l p = hrow) :
    rowOf (maximumf (addf (matmul d prec l r (constant ⟨2, ![N, M]⟩ .f32 0x00000000#32))
        (broadcastTo ⟨2, ![N, M]⟩ (shapeCast ⟨2, ![1, M]⟩ b hc) hb))
        (broadcast ⟨2, ![N, M]⟩ (Scalar.ofBits (F := Ideal) .f32 0x00000000#32))) p
      = relu (dense hrow (mat r) (vec b)) := by
  rw [kernel_relu_row, hd.kernel_dense_row, hl]

/-- A kernel's layer without activation, the same. -/
theorem PlainDot.kernel_linear_row (hd : PlainDot d) {φ₁ φ₂ : FTy} (prec : Option ContractPrecision)
    (l : FVec Ideal ⟨2, ![N, K]⟩ φ₁) (r : FVec Ideal ⟨2, ![K, M]⟩ φ₂) (b : FVec Ideal ⟨1, ![M]⟩ .f32)
    (hc : (⟨1, ![M]⟩ : Shape).ShapeCasts ⟨2, ![1, M]⟩) (hb : (⟨2, ![1, M]⟩ : Shape).Broadcasts ⟨2, ![N, M]⟩) (p : Fin N)
    (hrow : Fin K → EReal) (hl : rowOf l p = hrow) :
    rowOf (addf (matmul d prec l r (constant ⟨2, ![N, M]⟩ .f32 0x00000000#32))
        (broadcastTo ⟨2, ![N, M]⟩ (shapeCast ⟨2, ![1, M]⟩ b hc) hb)) p
      = dense hrow (mat r) (vec b) := by
  rw [hd.kernel_dense_row, hl]

/-- A whole activated layer of the host program, when row `p` of its input is already known to be `hrow`. -/
theorem PlainDot.host_layer_row (hd : PlainDot d) {φ₁ φ₂ : FTy} (prec : Option ContractPrecision)
    (l : FVec Ideal ⟨2, ![N, K]⟩ φ₁) (r : FVec Ideal ⟨2, ![K, M]⟩ φ₂) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![N, M]⟩ ![0, 1])
    (h0 : (⟨0, ![]⟩ : Shape).BroadcastsInDim ⟨2, ![N, M]⟩ ![]) (p : Fin N)
    (hrow : Fin K → EReal) (hl : rowOf l p = hrow) :
    rowOf (maximumf (addf (Host.dotGeneral d prec l r)
        (broadcastInDim ⟨2, ![N, M]⟩ ![0, 1] h2 (broadcastInDim ⟨2, ![1, M]⟩ ![1] h1 b)))
        (broadcastInDim ⟨2, ![N, M]⟩ ![] h0 (constant (F := Ideal) ⟨0, ![]⟩ .f32 0x00000000#32))) p
      = relu (dense hrow (mat r) (vec b)) := by
  rw [host_relu_row, hd.host_dense_row, hl]

/-- The host's layer without activation, the same. -/
theorem PlainDot.host_linear_row (hd : PlainDot d) {φ₁ φ₂ : FTy} (prec : Option ContractPrecision)
    (l : FVec Ideal ⟨2, ![N, K]⟩ φ₁) (r : FVec Ideal ⟨2, ![K, M]⟩ φ₂) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![N, M]⟩ ![0, 1]) (p : Fin N)
    (hrow : Fin K → EReal) (hl : rowOf l p = hrow) :
    rowOf (addf (Host.dotGeneral d prec l r)
        (broadcastInDim ⟨2, ![N, M]⟩ ![0, 1] h2 (broadcastInDim ⟨2, ![1, M]⟩ ![1] h1 b))) p
      = dense hrow (mat r) (vec b) := by
  rw [hd.host_dense_row, hl]

end Layers

end Cert.Rows

end
-- ==== Proof.Spec.lean ====
/-
  The per-row function both programs compute, written once over plain functions of finite index types.

  A row of the network's input is a function `Fin 93 → EReal`: its first 63 entries are the encoded position,
  the last 30 the encoded direction with the feature. The network: eight activated dense layers, the fifth reading the
  position joined to the fourth's result; from the eighth's result a one-entry density (`sigma`) and a 256-entry feature
  (`xyzf`, not activated); the feature joined to the direction goes through one more activated layer of width 128 and a
  three-entry layer under the logistic function (`rgb`); the result row is `rgb` joined to `sigma`.
  `G` applies that row function to every row of an input array.
-/
import proofs.«156197_j78477642432658_1_alg».proof.Proof.LibRows

noncomputable section

namespace Cert.NerfRows

open Idealize.ShloMosaic Idealize.ShloMosaic.ValueIdx Cert.Rows

/-- The network's weights and biases as functions of their coordinates. -/
structure Params where
  w0 : Fin 63 → Fin 256 → EReal
  b0 : Fin 256 → EReal
  w1 : Fin 256 → Fin 256 → EReal
  b1 : Fin 256 → EReal
  w2 : Fin 256 → Fin 256 → EReal
  b2 : Fin 256 → EReal
  w3 : Fin 256 → Fin 256 → EReal
  b3 : Fin 256 → EReal
  w4 : Fin 319 → Fin 256 → EReal
  b4 : Fin 256 → EReal
  w5 : Fin 256 → Fin 256 → EReal
  b5 : Fin 256 → EReal
  w6 : Fin 256 → Fin 256 → EReal
  b6 : Fin 256 → EReal
  w7 : Fin 256 → Fin 256 → EReal
  b7 : Fin 256 → EReal
  wf : Fin 256 → Fin 256 → EReal
  bf : Fin 256 → EReal
  wd : Fin 286 → Fin 128 → EReal
  bd : Fin 128 → EReal
  ws : Fin 256 → Fin 1 → EReal
  bs : Fin 1 → EReal
  wr : Fin 128 → Fin 3 → EReal
  br : Fin 3 → EReal

/-- The twenty-four weight and bias arrays, in the programs' argument order (`a1` is the first layer's weights,
    `a2` its bias, …, `a17`, `a18` the feature head, `a19`, `a20` the direction layer, `a21`, `a22` the density head, `a23`, `a24` the
    colour head). -/
structure Arrays where
  a1 : (⟨2, ![63, 256]⟩ : Shape).Idx → EReal
  a2 : (⟨1, ![256]⟩ : Shape).Idx → EReal
  a3 : (⟨2, ![256, 256]⟩ : Shape).Idx → EReal
  a4 : (⟨1, ![256]⟩ : Shape).Idx → EReal
  a5 : (⟨2, ![256, 256]⟩ : Shape).Idx → EReal
  a6 : (⟨1, ![256]⟩ : Shape).Idx → EReal
  a7 : (⟨2, ![256, 256]⟩ : Shape).Idx → EReal
  a8 : (⟨1, ![256]⟩ : Shape).Idx → EReal
  a9 : (⟨2, ![319, 256]⟩ : Shape).Idx → EReal
  a10 : (⟨1, ![256]⟩ : Shape).Idx → EReal
  a11 : (⟨2, ![256, 256]⟩ : Shape).Idx → EReal
  a12 : (⟨1, ![256]⟩ : Shape).Idx → EReal
  a13 : (⟨2, ![256, 256]⟩ : Shape).Idx → EReal
  a14 : (⟨1, ![256]⟩ : Shape).Idx → EReal
  a15 : (⟨2, ![256, 256]⟩ : Shape).Idx → EReal
  a16 : (⟨1, ![256]⟩ : Shape).Idx → EReal
  a17 : (⟨2, ![256, 256]⟩ : Shape).Idx → EReal
  a18 : (⟨1, ![256]⟩ : Shape).Idx → EReal
  a19 : (⟨2, ![286, 128]⟩ : Shape).Idx → EReal
  a20 : (⟨1, ![128]⟩ : Shape).Idx → EReal
  a21 : (⟨2, ![256, 1]⟩ : Shape).Idx → EReal
  a22 : (⟨1, ![1]⟩ : Shape).Idx → EReal
  a23 : (⟨2, ![128, 3]⟩ : Shape).Idx → EReal
  a24 : (⟨1, ![3]⟩ : Shape).Idx → EReal

/-- The parameters read off the arrays. -/
def Params.ofArrays (A : Arrays) : Params where
  w0 := mat A.a1
  b0 := vec A.a2
  w1 := mat A.a3
  b1 := vec A.a4
  w2 := mat A.a5
  b2 := vec A.a6
  w3 := mat A.a7
  b3 := vec A.a8
  w4 := mat A.a9
  b4 := vec A.a10
  w5 := mat A.a11
  b5 := vec A.a12
  w6 := mat A.a13
  b6 := vec A.a14
  w7 := mat A.a15
  b7 := vec A.a16
  wf := mat A.a17
  bf := vec A.a18
  wd := mat A.a19
  bd := vec A.a20
  ws := mat A.a21
  bs := vec A.a22
  wr := mat A.a23
  br := vec A.a24

variable (P : Params) (x : Fin 93 → EReal)

/-- The encoded position: the row's first 63 entries. -/
def xyz : Fin 63 → EReal := cols 63 0 (by omega) x
/-- The encoded direction and feature: the row's last 30 entries. -/
def dirfea : Fin 30 → EReal := cols 30 63 (by omega) x

def h0 : Fin 256 → EReal := relu (dense (xyz x) P.w0 P.b0)
def h1 : Fin 256 → EReal := relu (dense (h0 P x) P.w1 P.b1)
def h2 : Fin 256 → EReal := relu (dense (h1 P x) P.w2 P.b2)
def h3 : Fin 256 → EReal := relu (dense (h2 P x) P.w3 P.b3)
/-- The skip connection: the position joined to the fourth layer's result. -/
def h4 : Fin 256 → EReal := relu (dense (cat 319 (by omega) (xyz x) (h3 P x)) P.w4 P.b4)
def h5 : Fin 256 → EReal := relu (dense (h4 P x) P.w5 P.b5)
def h6 : Fin 256 → EReal := relu (dense (h5 P x) P.w6 P.b6)
def h7 : Fin 256 → EReal := relu (dense (h6 P x) P.w7 P.b7)
/-- The density head. -/
def sigma : Fin 1 → EReal := dense (h7 P x) P.ws P.bs
/-- The feature head, not activated. -/
def xyzf : Fin 256 → EReal := dense (h7 P x) P.wf P.bf
/-- The direction layer on the feature joined to the direction. -/
def dfeat : Fin 128 → EReal := relu (dense (cat 286 (by omega) (xyzf P x) (dirfea x)) P.wd P.bd)
/-- The colour head under the logistic function. -/
def rgb : Fin 3 → EReal := fun j => Ideal.logistic (dense (dfeat P x) P.wr P.br j)
/-- The result row: colour, then density. -/
def out : Fin 4 → EReal := cat 4 (by omega) (rgb P x) (sigma P x)

/-- The whole result array: the row function on every row of the input. -/
def G (X : (⟨2, ![262144, 93]⟩ : Shape).Idx → EReal) : (⟨2, ![262144, 4]⟩ : Shape).Idx → EReal :=
  fun i => out P (rowOf X (i 0)) (i 1)

theorem G_ix2 (X : (⟨2, ![262144, 93]⟩ : Shape).Idx → EReal) (r : Fin 262144) (q : Fin 4) :
    G P X (ix2 r q) = out P (rowOf X r) q := rfl

end Cert.NerfRows

end
-- ==== Proof.KerRows.lean ====
/-
  One block of rows through the kernel body: every row of the block the body stores is the network's row function of
  the same row of the input block.

  The body's stored value is written here once more as a chain of named arrays (`K0` … `K7` the eight activated
  layers' results on the block, `KS` the density, `KF` the feature, `KD` the direction layer, `KR` the colour, `KO` the
  stored block), each from the one before exactly as the body computes it: operands narrowed to bf16 (the identity at
  the ideal values), the product into the zero accumulator, the bias cast to a row and broadcast, the maximum with
  zero. `stored_eq` says the body's payload IS that chain; the chain is then read by rows with LibRows.lean.
-/
import proofs.«156197_j78477642432658_1_alg».proof.Proof.Gen.KernelIdeal.Frame
import proofs.«156197_j78477642432658_1_alg».proof.Proof.Spec

noncomputable section

namespace Cert.KernelIdeal.KerRows

open Cert.KernelIdeal Cert.KernelIdeal.Gen Idealize.ShloMosaic Idealize.ShloMosaic.ValueIdx
open Cert.Rows Cert.NerfRows

/-! ## The six products are plain: the coordinate facts of each record's operand indices -/

theorem d63_l0 (i : S1024x256.Idx) (q : dot_S1024x63_S63x256_S1024x256_1_0_0_1_n_n.contr.Idx) :
    (dot_S1024x63_S63x256_S1024x256_1_0_0_1_n_n.lhsIdx i q 0).val = (i 0).val := by
  unfold DotDims.lhsIdx
  rw [dif_neg (show ¬(0 : Fin S1024x63.rank) ∈ dot_S1024x63_S63x256_S1024x256_1_0_0_1_n_n.lhsBatch by decide), dif_pos (show (0 : Fin S1024x63.rank) ∈ dot_S1024x63_S63x256_S1024x256_1_0_0_1_n_n.lhsNonContracting by decide)]
  rfl
theorem d63_l1 (i : S1024x256.Idx) (q : dot_S1024x63_S63x256_S1024x256_1_0_0_1_n_n.contr.Idx) :
    (dot_S1024x63_S63x256_S1024x256_1_0_0_1_n_n.lhsIdx i q 1).val = (q ⟨0, by decide⟩).val :=
  dot_S1024x63_S63x256_S1024x256_1_0_0_1_n_n.lhsIdx_val_of_single rfl i q
theorem d63_r0 (i : S1024x256.Idx) (q : dot_S1024x63_S63x256_S1024x256_1_0_0_1_n_n.contr.Idx) :
    (dot_S1024x63_S63x256_S1024x256_1_0_0_1_n_n.rhsIdx i q 0).val = (q ⟨0, by decide⟩).val :=
  dot_S1024x63_S63x256_S1024x256_1_0_0_1_n_n.rhsIdx_val_of_single rfl i q
theorem d63_r1 (i : S1024x256.Idx) (q : dot_S1024x63_S63x256_S1024x256_1_0_0_1_n_n.contr.Idx) :
    (dot_S1024x63_S63x256_S1024x256_1_0_0_1_n_n.rhsIdx i q 1).val = (i 1).val := by
  unfold DotDims.rhsIdx
  rw [dif_neg (show ¬(1 : Fin S63x256.rank) ∈ dot_S1024x63_S63x256_S1024x256_1_0_0_1_n_n.rhsBatch by decide), dif_pos (show (1 : Fin S63x256.rank) ∈ dot_S1024x63_S63x256_S1024x256_1_0_0_1_n_n.rhsNonContracting by decide)]
  rfl
theorem plain63 : PlainDot dot_S1024x63_S63x256_S1024x256_1_0_0_1_n_n := ⟨rfl, rfl, d63_l0, d63_l1, d63_r0, d63_r1⟩

theorem d256_l0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem d256_l1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem d256_r0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem d256_r1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
theorem plain256 : PlainDot dot_S1024x256_S256x256_S1024x256_1_0_0_1_n_n := ⟨rfl, rfl, d256_l0, d256_l1, d256_r0, d256_r1⟩

theorem d319_l0 (i : S1024x256.Idx) (q : dot_S1024x319_S319x256_S1024x256_1_0_0_1_n_n.contr.Idx) :
    (dot_S1024x319_S319x256_S1024x256_1_0_0_1_n_n.lhsIdx i q 0).val = (i 0).val := by
  unfold DotDims.lhsIdx
  rw [dif_neg (show ¬(0 : Fin S1024x319.rank) ∈ dot_S1024x319_S319x256_S1024x256_1_0_0_1_n_n.lhsBatch by decide), dif_pos (show (0 : Fin S1024x319.rank) ∈ dot_S1024x319_S319x256_S1024x256_1_0_0_1_n_n.lhsNonContracting by decide)]
  rfl
theorem d319_l1 (i : S1024x256.Idx) (q : dot_S1024x319_S319x256_S1024x256_1_0_0_1_n_n.contr.Idx) :
    (dot_S1024x319_S319x256_S1024x256_1_0_0_1_n_n.lhsIdx i q 1).val = (q ⟨0, by decide⟩).val :=
  dot_S1024x319_S319x256_S1024x256_1_0_0_1_n_n.lhsIdx_val_of_single rfl i q
theorem d319_r0 (i : S1024x256.Idx) (q : dot_S1024x319_S319x256_S1024x256_1_0_0_1_n_n.contr.Idx) :
    (dot_S1024x319_S319x256_S1024x256_1_0_0_1_n_n.rhsIdx i q 0).val = (q ⟨0, by decide⟩).val :=
  dot_S1024x319_S319x256_S1024x256_1_0_0_1_n_n.rhsIdx_val_of_single rfl i q
theorem d319_r1 (i : S1024x256.Idx) (q : dot_S1024x319_S319x256_S1024x256_1_0_0_1_n_n.contr.Idx) :
    (dot_S1024x319_S319x256_S1024x256_1_0_0_1_n_n.rhsIdx i q 1).val = (i 1).val := by
  unfold DotDims.rhsIdx
  rw [dif_neg (show ¬(1 : Fin S319x256.rank) ∈ dot_S1024x319_S319x256_S1024x256_1_0_0_1_n_n.rhsBatch by decide), dif_pos (show (1 : Fin S319x256.rank) ∈ dot_S1024x319_S319x256_S1024x256_1_0_0_1_n_n.rhsNonContracting by decide)]
  rfl
theorem plain319 : PlainDot dot_S1024x319_S319x256_S1024x256_1_0_0_1_n_n := ⟨rfl, rfl, d319_l0, d319_l1, d319_r0, d319_r1⟩

theorem d1_l0 (i : S1024x1.Idx) (q : dot_S1024x256_S256x1_S1024x1_1_0_0_1_n_n.contr.Idx) :
    (dot_S1024x256_S256x1_S1024x1_1_0_0_1_n_n.lhsIdx i q 0).val = (i 0).val := by
  unfold DotDims.lhsIdx
  rw [dif_neg (show ¬(0 : Fin S1024x256.rank) ∈ dot_S1024x256_S256x1_S1024x1_1_0_0_1_n_n.lhsBatch by decide), dif_pos (show (0 : Fin S1024x256.rank) ∈ dot_S1024x256_S256x1_S1024x1_1_0_0_1_n_n.lhsNonContracting by decide)]
  rfl
theorem d1_l1 (i : S1024x1.Idx) (q : dot_S1024x256_S256x1_S1024x1_1_0_0_1_n_n.contr.Idx) :
    (dot_S1024x256_S256x1_S1024x1_1_0_0_1_n_n.lhsIdx i q 1).val = (q ⟨0, by decide⟩).val :=
  dot_S1024x256_S256x1_S1024x1_1_0_0_1_n_n.lhsIdx_val_of_single rfl i q
theorem d1_r0 (i : S1024x1.Idx) (q : dot_S1024x256_S256x1_S1024x1_1_0_0_1_n_n.contr.Idx) :
    (dot_S1024x256_S256x1_S1024x1_1_0_0_1_n_n.rhsIdx i q 0).val = (q ⟨0, by decide⟩).val :=
  dot_S1024x256_S256x1_S1024x1_1_0_0_1_n_n.rhsIdx_val_of_single rfl i q
theorem d1_r1 (i : S1024x1.Idx) (q : dot_S1024x256_S256x1_S1024x1_1_0_0_1_n_n.contr.Idx) :
    (dot_S1024x256_S256x1_S1024x1_1_0_0_1_n_n.rhsIdx i q 1).val = (i 1).val := by
  unfold DotDims.rhsIdx
  rw [dif_neg (show ¬(1 : Fin S256x1.rank) ∈ dot_S1024x256_S256x1_S1024x1_1_0_0_1_n_n.rhsBatch by decide), dif_pos (show (1 : Fin S256x1.rank) ∈ dot_S1024x256_S256x1_S1024x1_1_0_0_1_n_n.rhsNonContracting by decide)]
  rfl
theorem plain1 : PlainDot dot_S1024x256_S256x1_S1024x1_1_0_0_1_n_n := ⟨rfl, rfl, d1_l0, d1_l1, d1_r0, d1_r1⟩

theorem d286_l0 (i : S1024x128.Idx) (q : dot_S1024x286_S286x128_S1024x128_1_0_0_1_n_n.contr.Idx) :
    (dot_S1024x286_S286x128_S1024x128_1_0_0_1_n_n.lhsIdx i q 0).val = (i 0).val := by
  unfold DotDims.lhsIdx
  rw [dif_neg (show ¬(0 : Fin S1024x286.rank) ∈ dot_S1024x286_S286x128_S1024x128_1_0_0_1_n_n.lhsBatch by decide), dif_pos (show (0 : Fin S1024x286.rank) ∈ dot_S1024x286_S286x128_S1024x128_1_0_0_1_n_n.lhsNonContracting by decide)]
  rfl
theorem d286_l1 (i : S1024x128.Idx) (q : dot_S1024x286_S286x128_S1024x128_1_0_0_1_n_n.contr.Idx) :
    (dot_S1024x286_S286x128_S1024x128_1_0_0_1_n_n.lhsIdx i q 1).val = (q ⟨0, by decide⟩).val :=
  dot_S1024x286_S286x128_S1024x128_1_0_0_1_n_n.lhsIdx_val_of_single rfl i q
theorem d286_r0 (i : S1024x128.Idx) (q : dot_S1024x286_S286x128_S1024x128_1_0_0_1_n_n.contr.Idx) :
    (dot_S1024x286_S286x128_S1024x128_1_0_0_1_n_n.rhsIdx i q 0).val = (q ⟨0, by decide⟩).val :=
  dot_S1024x286_S286x128_S1024x128_1_0_0_1_n_n.rhsIdx_val_of_single rfl i q
theorem d286_r1 (i : S1024x128.Idx) (q : dot_S1024x286_S286x128_S1024x128_1_0_0_1_n_n.contr.Idx) :
    (dot_S1024x286_S286x128_S1024x128_1_0_0_1_n_n.rhsIdx i q 1).val = (i 1).val := by
  unfold DotDims.rhsIdx
  rw [dif_neg (show ¬(1 : Fin S286x128.rank) ∈ dot_S1024x286_S286x128_S1024x128_1_0_0_1_n_n.rhsBatch by decide), dif_pos (show (1 : Fin S286x128.rank) ∈ dot_S1024x286_S286x128_S1024x128_1_0_0_1_n_n.rhsNonContracting by decide)]
  rfl
theorem plain286 : PlainDot dot_S1024x286_S286x128_S1024x128_1_0_0_1_n_n := ⟨rfl, rfl, d286_l0, d286_l1, d286_r0, d286_r1⟩

theorem d3_l0 (i : S1024x3.Idx) (q : dot_S1024x128_S128x3_S1024x3_1_0_0_1_n_n.contr.Idx) :
    (dot_S1024x128_S128x3_S1024x3_1_0_0_1_n_n.lhsIdx i q 0).val = (i 0).val := by
  unfold DotDims.lhsIdx
  rw [dif_neg (show ¬(0 : Fin S1024x128.rank) ∈ dot_S1024x128_S128x3_S1024x3_1_0_0_1_n_n.lhsBatch by decide), dif_pos (show (0 : Fin S1024x128.rank) ∈ dot_S1024x128_S128x3_S1024x3_1_0_0_1_n_n.lhsNonContracting by decide)]
  rfl
theorem d3_l1 (i : S1024x3.Idx) (q : dot_S1024x128_S128x3_S1024x3_1_0_0_1_n_n.contr.Idx) :
    (dot_S1024x128_S128x3_S1024x3_1_0_0_1_n_n.lhsIdx i q 1).val = (q ⟨0, by decide⟩).val :=
  dot_S1024x128_S128x3_S1024x3_1_0_0_1_n_n.lhsIdx_val_of_single rfl i q
theorem d3_r0 (i : S1024x3.Idx) (q : dot_S1024x128_S128x3_S1024x3_1_0_0_1_n_n.contr.Idx) :
    (dot_S1024x128_S128x3_S1024x3_1_0_0_1_n_n.rhsIdx i q 0).val = (q ⟨0, by decide⟩).val :=
  dot_S1024x128_S128x3_S1024x3_1_0_0_1_n_n.rhsIdx_val_of_single rfl i q
theorem d3_r1 (i : S1024x3.Idx) (q : dot_S1024x128_S128x3_S1024x3_1_0_0_1_n_n.contr.Idx) :
    (dot_S1024x128_S128x3_S1024x3_1_0_0_1_n_n.rhsIdx i q 1).val = (i 1).val := by
  unfold DotDims.rhsIdx
  rw [dif_neg (show ¬(1 : Fin S128x3.rank) ∈ dot_S1024x128_S128x3_S1024x3_1_0_0_1_n_n.rhsBatch by decide), dif_pos (show (1 : Fin S128x3.rank) ∈ dot_S1024x128_S128x3_S1024x3_1_0_0_1_n_n.rhsNonContracting by decide)]
  rfl
theorem plain3 : PlainDot dot_S1024x128_S128x3_S1024x3_1_0_0_1_n_n := ⟨rfl, rfl, d3_l0, d3_l1, d3_r0, d3_r1⟩

/-! ## The body's value as a chain of named arrays -/

/-- An activated layer of width 256 on a block, as the body computes it. -/
def L256 (h : FVec Ideal S1024x256 .f32) (w : Vec Ideal S256x256 .f32) (b : Vec Ideal S256 .f32) : FVec Ideal S1024x256 .f32 :=
  maximumf (addf (matmul dot_S1024x256_S256x256_S1024x256_1_0_0_1_n_n none (truncf .bf16 h bitsLt_bf16_f32) (truncf .bf16 w bitsLt_bf16_f32) (constant S1024x256 .f32 0x00000000#32))
      (broadcastTo S1024x256 (shapeCast S1x256 b shapeCasts_S256_S1x256) broadcasts_S1x256_S1024x256))
    (broadcast S1024x256 (Scalar.ofBits .f32 0x00000000#32))

theorem L256_row (h : FVec Ideal S1024x256 .f32) (w : Vec Ideal S256x256 .f32) (b : Vec Ideal S256 .f32) (p : Fin 1024)
    (hrow : Fin 256 → EReal) (hl : rowOf h p = hrow) : rowOf (L256 h w b) p = relu (dense hrow (mat w) (vec b)) :=
  plain256.kernel_layer_row none (truncf .bf16 h bitsLt_bf16_f32) (truncf .bf16 w bitsLt_bf16_f32) b _ _ p hrow hl

variable (v0 : Vec Ideal S1024x93 .f32) (A : Arrays)

def K0 : FVec Ideal S1024x256 .f32 :=
  maximumf (addf (matmul dot_S1024x63_S63x256_S1024x256_1_0_0_1_n_n none (truncf .bf16 (k0_pay1 v0) bitsLt_bf16_f32) (truncf .bf16 A.a1 bitsLt_bf16_f32) (constant S1024x256 .f32 0x00000000#32))
      (broadcastTo S1024x256 (shapeCast S1x256 A.a2 shapeCasts_S256_S1x256) broadcasts_S1x256_S1024x256))
    (broadcast S1024x256 (Scalar.ofBits .f32 0x00000000#32))
def K1 : FVec Ideal S1024x256 .f32 := L256 (K0 v0 A) A.a3 A.a4
def K2 : FVec Ideal S1024x256 .f32 := L256 (K1 v0 A) A.a5 A.a6
def K3 : FVec Ideal S1024x256 .f32 := L256 (K2 v0 A) A.a7 A.a8
def K4 : FVec Ideal S1024x256 .f32 :=
  maximumf (addf (matmul dot_S1024x319_S319x256_S1024x256_1_0_0_1_n_n none
        (truncf .bf16 (concatenate S1024x319 1 [⟨S1024x63, k0_pay1 v0⟩, ⟨S1024x256, K3 v0 A⟩] concatenates_S1024x63_S1024x256_S1024x319_d1) bitsLt_bf16_f32)
        (truncf .bf16 A.a9 bitsLt_bf16_f32) (constant S1024x256 .f32 0x00000000#32))
      (broadcastTo S1024x256 (shapeCast S1x256 A.a10 shapeCasts_S256_S1x256) broadcasts_S1x256_S1024x256))
    (broadcast S1024x256 (Scalar.ofBits .f32 0x00000000#32))
def K5 : FVec Ideal S1024x256 .f32 := L256 (K4 v0 A) A.a11 A.a12
def K6 : FVec Ideal S1024x256 .f32 := L256 (K5 v0 A) A.a13 A.a14
def K7 : FVec Ideal S1024x256 .f32 := L256 (K6 v0 A) A.a15 A.a16
def KS : FVec Ideal S1024x1 .f32 :=
  addf (matmul dot_S1024x256_S256x1_S1024x1_1_0_0_1_n_n none (truncf .bf16 (K7 v0 A) bitsLt_bf16_f32) (truncf .bf16 A.a21 bitsLt_bf16_f32) (constant S1024x1 .f32 0x00000000#32))
    (broadcastTo S1024x1 (shapeCast S1x1 A.a22 shapeCasts_S1_S1x1) broadcasts_S1x1_S1024x1)
def KF : FVec Ideal S1024x256 .f32 :=
  addf (matmul dot_S1024x256_S256x256_S1024x256_1_0_0_1_n_n none (truncf .bf16 (K7 v0 A) bitsLt_bf16_f32) (truncf .bf16 A.a17 bitsLt_bf16_f32) (constant S1024x256 .f32 0x00000000#32))
    (broadcastTo S1024x256 (shapeCast S1x256 A.a18 shapeCasts_S256_S1x256) broadcasts_S1x256_S1024x256)
def KD : FVec Ideal S1024x128 .f32 :=
  maximumf (addf (matmul dot_S1024x286_S286x128_S1024x128_1_0_0_1_n_n none
        (truncf .bf16 (concatenate S1024x286 1 [⟨S1024x256, KF v0 A⟩, ⟨S1024x30, k0_pay2 v0⟩] concatenates_S1024x256_S1024x30_S1024x286_d1) bitsLt_bf16_f32)
        (truncf .bf16 A.a19 bitsLt_bf16_f32) (constant S1024x128 .f32 0x00000000#32))
      (broadcastTo S1024x128 (shapeCast S1x128 A.a20 shapeCasts_S128_S1x128) broadcasts_S1x128_S1024x128))
    (broadcast S1024x128 (Scalar.ofBits .f32 0x00000000#32))
def KR : FVec Ideal S1024x3 .f32 :=
  logistic (addf (matmul dot_S1024x128_S128x3_S1024x3_1_0_0_1_n_n none (truncf .bf16 (KD v0 A) bitsLt_bf16_f32) (truncf .bf16 A.a23 bitsLt_bf16_f32) (constant S1024x3 .f32 0x00000000#32))
    (broadcastTo S1024x3 (shapeCast S1x3 A.a24 shapeCasts_S3_S1x3) broadcasts_S1x3_S1024x3))
def KO : FVec Ideal S1024x4 .f32 :=
  concatenate S1024x4 1 [⟨S1024x3, KR v0 A⟩, ⟨S1024x1, KS v0 A⟩] concatenates_S1024x3_S1024x1_S1024x4_d1

/-- The body's payload, with the loads in the body's order, is the chain. -/
theorem stored_eq :
    k0_pay6 (F := Ideal) (k0_pay2 v0) (k0_pay4 A.a15) A.a16
      (k0_pay5 (k0_pay1 v0) A.a8 (k0_pay3 v0 A.a1 A.a2 A.a3 A.a4 A.a5 A.a6 A.a7) A.a9 A.a10 A.a11 A.a12 A.a13 A.a14)
      (constant S1024x256 .f32 0x00000000#32) A.a21 A.a22 A.a17 A.a18 A.a19 A.a20 A.a23 A.a24 = KO v0 A := rfl

/-! ## The chain, by rows -/

variable (p : Fin 1024)

theorem pay1_row : rowOf (k0_pay1 v0) p = xyz (rowOf v0 p) :=
  slice_cols_row 0 (by omega) v0 slices_S1024x93_o0_0_S1024x63 p

theorem pay2_row : rowOf (k0_pay2 v0) p = dirfea (rowOf v0 p) :=
  slice_cols_row 63 (by omega) v0 slices_S1024x93_o0_63_S1024x30 p

theorem K0_row : rowOf (K0 v0 A) p = h0 (.ofArrays A) (rowOf v0 p) :=
  plain63.kernel_layer_row none (truncf .bf16 (k0_pay1 v0) bitsLt_bf16_f32) (truncf .bf16 A.a1 bitsLt_bf16_f32) A.a2 _ _ p _ (pay1_row v0 p)

theorem K1_row : rowOf (K1 v0 A) p = h1 (.ofArrays A) (rowOf v0 p) := L256_row _ A.a3 A.a4 p _ (K0_row v0 A p)
theorem K2_row : rowOf (K2 v0 A) p = h2 (.ofArrays A) (rowOf v0 p) := L256_row _ A.a5 A.a6 p _ (K1_row v0 A p)
theorem K3_row : rowOf (K3 v0 A) p = h3 (.ofArrays A) (rowOf v0 p) := L256_row _ A.a7 A.a8 p _ (K2_row v0 A p)

theorem cat4_row : rowOf (concatenate S1024x319 1 [⟨S1024x63, k0_pay1 v0⟩, ⟨S1024x256, K3 v0 A⟩] concatenates_S1024x63_S1024x256_S1024x319_d1) p
    = cat 319 (by omega) (xyz (rowOf v0 p)) (h3 (.ofArrays A) (rowOf v0 p)) := by
  rw [← pay1_row v0 p, ← K3_row v0 A p]
  exact concat_cols_row 319 (by omega) (k0_pay1 v0) (K3 v0 A) concatenates_S1024x63_S1024x256_S1024x319_d1 p

theorem K4_row : rowOf (K4 v0 A) p = h4 (.ofArrays A) (rowOf v0 p) :=
  plain319.kernel_layer_row none
    (truncf .bf16 (concatenate S1024x319 1 [⟨S1024x63, k0_pay1 v0⟩, ⟨S1024x256, K3 v0 A⟩] concatenates_S1024x63_S1024x256_S1024x319_d1) bitsLt_bf16_f32)
    (truncf .bf16 A.a9 bitsLt_bf16_f32) A.a10 _ _ p _ (cat4_row v0 A p)

theorem K5_row : rowOf (K5 v0 A) p = h5 (.ofArrays A) (rowOf v0 p) := L256_row _ A.a11 A.a12 p _ (K4_row v0 A p)
theorem K6_row : rowOf (K6 v0 A) p = h6 (.ofArrays A) (rowOf v0 p) := L256_row _ A.a13 A.a14 p _ (K5_row v0 A p)
theorem K7_row : rowOf (K7 v0 A) p = h7 (.ofArrays A) (rowOf v0 p) := L256_row _ A.a15 A.a16 p _ (K6_row v0 A p)

theorem KS_row : rowOf (KS v0 A) p = sigma (.ofArrays A) (rowOf v0 p) :=
  plain1.kernel_linear_row none (truncf .bf16 (K7 v0 A) bitsLt_bf16_f32) (truncf .bf16 A.a21 bitsLt_bf16_f32) A.a22 _ _ p _ (K7_row v0 A p)

theorem KF_row : rowOf (KF v0 A) p = xyzf (.ofArrays A) (rowOf v0 p) :=
  plain256.kernel_linear_row none (truncf .bf16 (K7 v0 A) bitsLt_bf16_f32) (truncf .bf16 A.a17 bitsLt_bf16_f32) A.a18 _ _ p _ (K7_row v0 A p)

theorem catD_row : rowOf (concatenate S1024x286 1 [⟨S1024x256, KF v0 A⟩, ⟨S1024x30, k0_pay2 v0⟩] concatenates_S1024x256_S1024x30_S1024x286_d1) p
    = cat 286 (by omega) (xyzf (.ofArrays A) (rowOf v0 p)) (dirfea (rowOf v0 p)) := by
  rw [← pay2_row v0 p, ← KF_row v0 A p]
  exact concat_cols_row 286 (by omega) (KF v0 A) (k0_pay2 v0) concatenates_S1024x256_S1024x30_S1024x286_d1 p

theorem KD_row : rowOf (KD v0 A) p = dfeat (.ofArrays A) (rowOf v0 p) :=
  plain286.kernel_layer_row none
    (truncf .bf16 (concatenate S1024x286 1 [⟨S1024x256, KF v0 A⟩, ⟨S1024x30, k0_pay2 v0⟩] concatenates_S1024x256_S1024x30_S1024x286_d1) bitsLt_bf16_f32)
    (truncf .bf16 A.a19 bitsLt_bf16_f32) A.a20 _ _ p _ (catD_row v0 A p)

theorem KR_row : rowOf (KR v0 A) p = rgb (.ofArrays A) (rowOf v0 p) := by
  refine (logistic_row _ p).trans ?_
  rw [plain3.kernel_linear_row none (truncf .bf16 (KD v0 A) bitsLt_bf16_f32) (truncf .bf16 A.a23 bitsLt_bf16_f32) A.a24 _ _ p _ (KD_row v0 A p)]
  rfl

theorem KO_row : rowOf (KO v0 A) p = out (.ofArrays A) (rowOf v0 p) := by
  unfold out
  rw [← KR_row v0 A p, ← KS_row v0 A p]
  exact concat_cols_row 4 (by omega) (KR v0 A) (KS v0 A) concatenates_S1024x3_S1024x1_S1024x4_d1 p

/-- Row `p` of the block the body stores is the network's row function of row `p` of the input block. -/
theorem stored_row :
    rowOf (k0_pay6 (F := Ideal) (k0_pay2 v0) (k0_pay4 A.a15) A.a16
      (k0_pay5 (k0_pay1 v0) A.a8 (k0_pay3 v0 A.a1 A.a2 A.a3 A.a4 A.a5 A.a6 A.a7) A.a9 A.a10 A.a11 A.a12 A.a13 A.a14)
      (constant S1024x256 .f32 0x00000000#32) A.a21 A.a22 A.a17 A.a18 A.a19 A.a20 A.a23 A.a24) p
      = out (.ofArrays A) (rowOf v0 p) := by
  rw [stored_eq]
  exact KO_row v0 A p

end Cert.KernelIdeal.KerRows

end
-- ==== Proof.KerValue.lean ====
/-
  From blocks to the array: after the kernel's run the result array is `G` of the argument arrays.

  The grid has 256 points; point `t` reads rows `1024 t … 1024 t + 1023` of the input (all 93 columns) and the whole of
  every weight and bias array, and writes back rows `1024 t … 1024 t + 1023` of the result (all 4 columns). So what point
  `t` writes back is block `t` of `G`: row `p` of the stored block is the network's row function of row `p` of the input
  block (KerRows.lean), which is row `1024 t + p` of the input. The 256 blocks cover the result array (row `r` lies in
  block `r / 1024`), so the array ends holding `G`.
-/
import proofs.«156197_j78477642432658_1_alg».proof.Proof.Gen.KernelIdeal.Value
import proofs.«156197_j78477642432658_1_alg».proof.Proof.KerRows

noncomputable section

namespace Cert.KernelIdeal.KerValue

open Cert.KernelIdeal Cert.KernelIdeal.Gen Idealize.ShloMosaic Idealize.ShloMosaic.TcCoe Idealize.SL.Sem
open Idealize.ShloMosaic.ValueIdx Cert.Rows Cert.NerfRows Cert.KernelIdeal.KerRows
open Idealize.ShloMosaic.Pipeline (Dat)

variable (m : (ℓ : Loc nD τ sig) → Buf (Elt Ideal) ℓ) (ρ : Dev nD → PrngReg)

/-- The weight and bias arrays as the region finds them. -/
def arrs (c : Dev nD) : Arrays :=
  ⟨V m c main_arg1, V m c main_arg2, V m c main_arg3, V m c main_arg4, V m c main_arg5, V m c main_arg6, V m c main_arg7, V m c main_arg8, V m c main_arg9, V m c main_arg10, V m c main_arg11, V m c main_arg12, V m c main_arg13, V m c main_arg14, V m c main_arg15, V m c main_arg16, V m c main_arg17, V m c main_arg18, V m c main_arg19, V m c main_arg20, V m c main_arg21, V m c main_arg22, V m c main_arg23, V m c main_arg24⟩

/-! ## The printed index maps, decided over the grid -/

theorem hz1 : (![0] : Fin 1 → Nat) = fun _ => 0 := funext fun a => by fin_cases a <;> rfl
theorem hz2 : (![0, 0] : Fin 2 → Nat) = fun _ => 0 := funext fun a => by fin_cases a <;> rfl

/-- The input's block index is the point on the rows and zero on the columns; so is the result's. -/
theorem idx_rows : ∀ t : Fin cfg0.N, win0_0.index t (0 : Fin 2) = t.val ∧ win0_0.index t (1 : Fin 2) = 0
    ∧ win0_25.index t (0 : Fin 2) = t.val ∧ win0_25.index t (1 : Fin 2) = 0 :=
  (by decide +kernel : ∀ t : Fin grid0.N, _)

theorem idx1 : ∀ (t : Fin cfg0.N) (a : Fin 2), win0_1.index t a = 0 := (by decide +kernel : ∀ (t : Fin grid0.N) (a : Fin 2), _)
theorem idx2 : ∀ (t : Fin cfg0.N) (a : Fin 1), win0_2.index t a = 0 := (by decide +kernel : ∀ (t : Fin grid0.N) (a : Fin 1), _)
theorem idx3 : ∀ (t : Fin cfg0.N) (a : Fin 2), win0_3.index t a = 0 := (by decide +kernel : ∀ (t : Fin grid0.N) (a : Fin 2), _)
theorem idx4 : ∀ (t : Fin cfg0.N) (a : Fin 1), win0_4.index t a = 0 := (by decide +kernel : ∀ (t : Fin grid0.N) (a : Fin 1), _)
theorem idx5 : ∀ (t : Fin cfg0.N) (a : Fin 2), win0_5.index t a = 0 := (by decide +kernel : ∀ (t : Fin grid0.N) (a : Fin 2), _)
theorem idx6 : ∀ (t : Fin cfg0.N) (a : Fin 1), win0_6.index t a = 0 := (by decide +kernel : ∀ (t : Fin grid0.N) (a : Fin 1), _)
theorem idx7 : ∀ (t : Fin cfg0.N) (a : Fin 2), win0_7.index t a = 0 := (by decide +kernel : ∀ (t : Fin grid0.N) (a : Fin 2), _)
theorem idx8 : ∀ (t : Fin cfg0.N) (a : Fin 1), win0_8.index t a = 0 := (by decide +kernel : ∀ (t : Fin grid0.N) (a : Fin 1), _)
theorem idx9 : ∀ (t : Fin cfg0.N) (a : Fin 2), win0_9.index t a = 0 := (by decide +kernel : ∀ (t : Fin grid0.N) (a : Fin 2), _)
theorem idx10 : ∀ (t : Fin cfg0.N) (a : Fin 1), win0_10.index t a = 0 := (by decide +kernel : ∀ (t : Fin grid0.N) (a : Fin 1), _)
theorem idx11 : ∀ (t : Fin cfg0.N) (a : Fin 2), win0_11.index t a = 0 := (by decide +kernel : ∀ (t : Fin grid0.N) (a : Fin 2), _)
theorem idx12 : ∀ (t : Fin cfg0.N) (a : Fin 1), win0_12.index t a = 0 := (by decide +kernel : ∀ (t : Fin grid0.N) (a : Fin 1), _)
theorem idx13 : ∀ (t : Fin cfg0.N) (a : Fin 2), win0_13.index t a = 0 := (by decide +kernel : ∀ (t : Fin grid0.N) (a : Fin 2), _)
theorem idx14 : ∀ (t : Fin cfg0.N) (a : Fin 1), win0_14.index t a = 0 := (by decide +kernel : ∀ (t : Fin grid0.N) (a : Fin 1), _)
theorem idx15 : ∀ (t : Fin cfg0.N) (a : Fin 2), win0_15.index t a = 0 := (by decide +kernel : ∀ (t : Fin grid0.N) (a : Fin 2), _)
theorem idx16 : ∀ (t : Fin cfg0.N) (a : Fin 1), win0_16.index t a = 0 := (by decide +kernel : ∀ (t : Fin grid0.N) (a : Fin 1), _)
theorem idx17 : ∀ (t : Fin cfg0.N) (a : Fin 2), win0_17.index t a = 0 := (by decide +kernel : ∀ (t : Fin grid0.N) (a : Fin 2), _)
theorem idx18 : ∀ (t : Fin cfg0.N) (a : Fin 1), win0_18.index t a = 0 := (by decide +kernel : ∀ (t : Fin grid0.N) (a : Fin 1), _)
theorem idx19 : ∀ (t : Fin cfg0.N) (a : Fin 2), win0_19.index t a = 0 := (by decide +kernel : ∀ (t : Fin grid0.N) (a : Fin 2), _)
theorem idx20 : ∀ (t : Fin cfg0.N) (a : Fin 1), win0_20.index t a = 0 := (by decide +kernel : ∀ (t : Fin grid0.N) (a : Fin 1), _)
theorem idx21 : ∀ (t : Fin cfg0.N) (a : Fin 2), win0_21.index t a = 0 := (by decide +kernel : ∀ (t : Fin grid0.N) (a : Fin 2), _)
theorem idx22 : ∀ (t : Fin cfg0.N) (a : Fin 1), win0_22.index t a = 0 := (by decide +kernel : ∀ (t : Fin grid0.N) (a : Fin 1), _)
theorem idx23 : ∀ (t : Fin cfg0.N) (a : Fin 2), win0_23.index t a = 0 := (by decide +kernel : ∀ (t : Fin grid0.N) (a : Fin 2), _)
theorem idx24 : ∀ (t : Fin cfg0.N) (a : Fin 1), win0_24.index t a = 0 := (by decide +kernel : ∀ (t : Fin grid0.N) (a : Fin 1), _)

/-! ## Every point's block of a weight or bias array is the whole array -/

theorem blk1 (c : Dev nD) (t : Fin cfg0.N) : iblk m c 1 t = V m c main_arg1 := by
  funext y
  show V m c main_arg1 (((cfg0.win 1).blk t).view.emb y) = V m c main_arg1 y
  exact congrArg _ (funext fun a => Fin.ext ((cfg0.win 1).rect_emb_val_of_index_zero t a (idx1 t a) y))
theorem blk2 (c : Dev nD) (t : Fin cfg0.N) : iblk m c 2 t = V m c main_arg2 := by
  funext y
  show V m c main_arg2 (((cfg0.win 2).blk t).view.emb y) = V m c main_arg2 y
  exact congrArg _ (funext fun a => Fin.ext ((cfg0.win 2).rect_emb_val_of_index_zero t a (idx2 t a) y))
theorem blk3 (c : Dev nD) (t : Fin cfg0.N) : iblk m c 3 t = V m c main_arg3 := by
  funext y
  show V m c main_arg3 (((cfg0.win 3).blk t).view.emb y) = V m c main_arg3 y
  exact congrArg _ (funext fun a => Fin.ext ((cfg0.win 3).rect_emb_val_of_index_zero t a (idx3 t a) y))
theorem blk4 (c : Dev nD) (t : Fin cfg0.N) : iblk m c 4 t = V m c main_arg4 := by
  funext y
  show V m c main_arg4 (((cfg0.win 4).blk t).view.emb y) = V m c main_arg4 y
  exact congrArg _ (funext fun a => Fin.ext ((cfg0.win 4).rect_emb_val_of_index_zero t a (idx4 t a) y))
theorem blk5 (c : Dev nD) (t : Fin cfg0.N) : iblk m c 5 t = V m c main_arg5 := by
  funext y
  show V m c main_arg5 (((cfg0.win 5).blk t).view.emb y) = V m c main_arg5 y
  exact congrArg _ (funext fun a => Fin.ext ((cfg0.win 5).rect_emb_val_of_index_zero t a (idx5 t a) y))
theorem blk6 (c : Dev nD) (t : Fin cfg0.N) : iblk m c 6 t = V m c main_arg6 := by
  funext y
  show V m c main_arg6 (((cfg0.win 6).blk t).view.emb y) = V m c main_arg6 y
  exact congrArg _ (funext fun a => Fin.ext ((cfg0.win 6).rect_emb_val_of_index_zero t a (idx6 t a) y))
theorem blk7 (c : Dev nD) (t : Fin cfg0.N) : iblk m c 7 t = V m c main_arg7 := by
  funext y
  show V m c main_arg7 (((cfg0.win 7).blk t).view.emb y) = V m c main_arg7 y
  exact congrArg _ (funext fun a => Fin.ext ((cfg0.win 7).rect_emb_val_of_index_zero t a (idx7 t a) y))
theorem blk8 (c : Dev nD) (t : Fin cfg0.N) : iblk m c 8 t = V m c main_arg8 := by
  funext y
  show V m c main_arg8 (((cfg0.win 8).blk t).view.emb y) = V m c main_arg8 y
  exact congrArg _ (funext fun a => Fin.ext ((cfg0.win 8).rect_emb_val_of_index_zero t a (idx8 t a) y))
theorem blk9 (c : Dev nD) (t : Fin cfg0.N) : iblk m c 9 t = V m c main_arg9 := by
  funext y
  show V m c main_arg9 (((cfg0.win 9).blk t).view.emb y) = V m c main_arg9 y
  exact congrArg _ (funext fun a => Fin.ext ((cfg0.win 9).rect_emb_val_of_index_zero t a (idx9 t a) y))
theorem blk10 (c : Dev nD) (t : Fin cfg0.N) : iblk m c 10 t = V m c main_arg10 := by
  funext y
  show V m c main_arg10 (((cfg0.win 10).blk t).view.emb y) = V m c main_arg10 y
  exact congrArg _ (funext fun a => Fin.ext ((cfg0.win 10).rect_emb_val_of_index_zero t a (idx10 t a) y))
theorem blk11 (c : Dev nD) (t : Fin cfg0.N) : iblk m c 11 t = V m c main_arg11 := by
  funext y
  show V m c main_arg11 (((cfg0.win 11).blk t).view.emb y) = V m c main_arg11 y
  exact congrArg _ (funext fun a => Fin.ext ((cfg0.win 11).rect_emb_val_of_index_zero t a (idx11 t a) y))
theorem blk12 (c : Dev nD) (t : Fin cfg0.N) : iblk m c 12 t = V m c main_arg12 := by
  funext y
  show V m c main_arg12 (((cfg0.win 12).blk t).view.emb y) = V m c main_arg12 y
  exact congrArg _ (funext fun a => Fin.ext ((cfg0.win 12).rect_emb_val_of_index_zero t a (idx12 t a) y))
theorem blk13 (c : Dev nD) (t : Fin cfg0.N) : iblk m c 13 t = V m c main_arg13 := by
  funext y
  show V m c main_arg13 (((cfg0.win 13).blk t).view.emb y) = V m c main_arg13 y
  exact congrArg _ (funext fun a => Fin.ext ((cfg0.win 13).rect_emb_val_of_index_zero t a (idx13 t a) y))
theorem blk14 (c : Dev nD) (t : Fin cfg0.N) : iblk m c 14 t = V m c main_arg14 := by
  funext y
  show V m c main_arg14 (((cfg0.win 14).blk t).view.emb y) = V m c main_arg14 y
  exact congrArg _ (funext fun a => Fin.ext ((cfg0.win 14).rect_emb_val_of_index_zero t a (idx14 t a) y))
theorem blk15 (c : Dev nD) (t : Fin cfg0.N) : iblk m c 15 t = V m c main_arg15 := by
  funext y
  show V m c main_arg15 (((cfg0.win 15).blk t).view.emb y) = V m c main_arg15 y
  exact congrArg _ (funext fun a => Fin.ext ((cfg0.win 15).rect_emb_val_of_index_zero t a (idx15 t a) y))
theorem blk16 (c : Dev nD) (t : Fin cfg0.N) : iblk m c 16 t = V m c main_arg16 := by
  funext y
  show V m c main_arg16 (((cfg0.win 16).blk t).view.emb y) = V m c main_arg16 y
  exact congrArg _ (funext fun a => Fin.ext ((cfg0.win 16).rect_emb_val_of_index_zero t a (idx16 t a) y))
theorem blk17 (c : Dev nD) (t : Fin cfg0.N) : iblk m c 17 t = V m c main_arg17 := by
  funext y
  show V m c main_arg17 (((cfg0.win 17).blk t).view.emb y) = V m c main_arg17 y
  exact congrArg _ (funext fun a => Fin.ext ((cfg0.win 17).rect_emb_val_of_index_zero t a (idx17 t a) y))
theorem blk18 (c : Dev nD) (t : Fin cfg0.N) : iblk m c 18 t = V m c main_arg18 := by
  funext y
  show V m c main_arg18 (((cfg0.win 18).blk t).view.emb y) = V m c main_arg18 y
  exact congrArg _ (funext fun a => Fin.ext ((cfg0.win 18).rect_emb_val_of_index_zero t a (idx18 t a) y))
theorem blk19 (c : Dev nD) (t : Fin cfg0.N) : iblk m c 19 t = V m c main_arg19 := by
  funext y
  show V m c main_arg19 (((cfg0.win 19).blk t).view.emb y) = V m c main_arg19 y
  exact congrArg _ (funext fun a => Fin.ext ((cfg0.win 19).rect_emb_val_of_index_zero t a (idx19 t a) y))
theorem blk20 (c : Dev nD) (t : Fin cfg0.N) : iblk m c 20 t = V m c main_arg20 := by
  funext y
  show V m c main_arg20 (((cfg0.win 20).blk t).view.emb y) = V m c main_arg20 y
  exact congrArg _ (funext fun a => Fin.ext ((cfg0.win 20).rect_emb_val_of_index_zero t a (idx20 t a) y))
theorem blk21 (c : Dev nD) (t : Fin cfg0.N) : iblk m c 21 t = V m c main_arg21 := by
  funext y
  show V m c main_arg21 (((cfg0.win 21).blk t).view.emb y) = V m c main_arg21 y
  exact congrArg _ (funext fun a => Fin.ext ((cfg0.win 21).rect_emb_val_of_index_zero t a (idx21 t a) y))
theorem blk22 (c : Dev nD) (t : Fin cfg0.N) : iblk m c 22 t = V m c main_arg22 := by
  funext y
  show V m c main_arg22 (((cfg0.win 22).blk t).view.emb y) = V m c main_arg22 y
  exact congrArg _ (funext fun a => Fin.ext ((cfg0.win 22).rect_emb_val_of_index_zero t a (idx22 t a) y))
theorem blk23 (c : Dev nD) (t : Fin cfg0.N) : iblk m c 23 t = V m c main_arg23 := by
  funext y
  show V m c main_arg23 (((cfg0.win 23).blk t).view.emb y) = V m c main_arg23 y
  exact congrArg _ (funext fun a => Fin.ext ((cfg0.win 23).rect_emb_val_of_index_zero t a (idx23 t a) y))
theorem blk24 (c : Dev nD) (t : Fin cfg0.N) : iblk m c 24 t = V m c main_arg24 := by
  funext y
  show V m c main_arg24 (((cfg0.win 24).blk t).view.emb y) = V m c main_arg24 y
  exact congrArg _ (funext fun a => Fin.ext ((cfg0.win 24).rect_emb_val_of_index_zero t a (idx24 t a) y))

/-- So the arrays a point's body loads are the arrays the region finds. -/
theorem blocks_eq (c : Dev nD) (t : Fin cfg0.N) :
    (⟨iblk m c 1 t, iblk m c 2 t, iblk m c 3 t, iblk m c 4 t, iblk m c 5 t, iblk m c 6 t, iblk m c 7 t, iblk m c 8 t,
      iblk m c 9 t, iblk m c 10 t, iblk m c 11 t, iblk m c 12 t, iblk m c 13 t, iblk m c 14 t, iblk m c 15 t, iblk m c 16 t,
      iblk m c 17 t, iblk m c 18 t, iblk m c 19 t, iblk m c 20 t, iblk m c 21 t, iblk m c 22 t, iblk m c 23 t, iblk m c 24 t⟩ : Arrays)
      = arrs m c := by
  rw [blk1 m c t, blk2 m c t, blk3 m c t, blk4 m c t, blk5 m c t, blk6 m c t, blk7 m c t, blk8 m c t, blk9 m c t, blk10 m c t,
    blk11 m c t, blk12 m c t, blk13 m c t, blk14 m c t, blk15 m c t, blk16 m c t, blk17 m c t, blk18 m c t, blk19 m c t,
    blk20 m c t, blk21 m c t, blk22 m c t, blk23 m c t, blk24 m c t]
  rfl

/-! ## The input's and the result's blocks are blocks of rows -/

/-- Row `p` of the input's block at point `t` is row `1024 t + p` of the input. -/
theorem blk0_row (c : Dev nD) (t : Fin cfg0.N) (p : Fin 1024) :
    rowOf (iblk m c 0 t) p = rowOf (V m c main_arg0) ⟨t.val * 1024 + p.val, by
      have ht : t.val < 256 := Nat.lt_of_lt_of_eq t.isLt N_0
      have := p.isLt; omega⟩ := by
  funext k
  show V m c main_arg0 (((cfg0.win 0).blk t).view.emb (ix2 p k)) = V m c main_arg0 (ix2 _ k)
  refine congrArg _ (funext fun a => Fin.ext ?_)
  obtain ⟨e0, e1, -, -⟩ := idx_rows t
  match a with
  | ⟨0, _⟩ => show win0_0.index t (0 : Fin 2) * 1024 + 1 * p.val = t.val * 1024 + p.val; rw [e0]; omega
  | ⟨1, _⟩ => show win0_0.index t (1 : Fin 2) * 93 + 1 * k.val = k.val; rw [e1]; omega

/-- Entry (p, q) of the result's block at point `t` sits at row `1024 t + p`, column `q` of the result. -/
theorem emb25 (t : Fin cfg0.N) (p : Fin 1024) (q : Fin 4) :
    ((cfg0.win 25).blk t).view.emb (ix2 p q) = ix2 (⟨t.val * 1024 + p.val, by
      have ht : t.val < 256 := Nat.lt_of_lt_of_eq t.isLt N_0
      have := p.isLt; omega⟩ : Fin 262144) q := by
  refine funext fun a => Fin.ext ?_
  obtain ⟨-, -, e0, e1⟩ := idx_rows t
  match a with
  | ⟨0, _⟩ => show win0_25.index t (0 : Fin 2) * 1024 + 1 * p.val = t.val * 1024 + p.val; rw [e0]; omega
  | ⟨1, _⟩ => show win0_25.index t (1 : Fin 2) * 4 + 1 * q.val = q.val; rw [e1]; omega

/-! ## What a point writes back, the cover, the array -/

/-- WHAT POINT `t` WRITES BACK is block `t` of `G` of the arrays as the region finds them. -/
theorem flushed_eq (c : Dev nD) (t : Fin cfg0.N) :
    (dats m 0 c).flushed 25 t
      = ((cfg0.win 25).blk t).view.read (Elt Ideal) (G (.ofArrays (arrs m c)) (V m c main_arg0)) := by
  rw [Value.flushed25]
  unfold out0_25
  rw [View.canon_unit_zero hz2]
  simp only [View.ld_unit_zero (S := S1024x93) hz2, View.ld_unit_zero (S := S63x256) hz2, View.ld_unit_zero (S := S256) hz1,
    View.ld_unit_zero (S := S256x256) hz2, View.ld_unit_zero (S := S319x256) hz2, View.ld_unit_zero (S := S256x1) hz2,
    View.ld_unit_zero (S := S1) hz1, View.ld_unit_zero (S := S286x128) hz2, View.ld_unit_zero (S := S128) hz1,
    View.ld_unit_zero (S := S128x3) hz2, View.ld_unit_zero (S := S3) hz1]
  funext j
  obtain ⟨p, q, rfl⟩ : ∃ (p : Fin 1024) (q : Fin 4), j = ix2 p q := ⟨j 0, j 1, eq_ix2 j⟩
  refine (congrFun (stored_row (iblk m c 0 t) ⟨iblk m c 1 t, iblk m c 2 t, iblk m c 3 t, iblk m c 4 t, iblk m c 5 t, iblk m c 6 t, iblk m c 7 t, iblk m c 8 t,
      iblk m c 9 t, iblk m c 10 t, iblk m c 11 t, iblk m c 12 t, iblk m c 13 t, iblk m c 14 t, iblk m c 15 t, iblk m c 16 t,
      iblk m c 17 t, iblk m c 18 t, iblk m c 19 t, iblk m c 20 t, iblk m c 21 t, iblk m c 22 t, iblk m c 23 t, iblk m c 24 t⟩ p) q).trans ?_
  rw [blocks_eq m c t, blk0_row m c t p]
  show _ = G (.ofArrays (arrs m c)) (V m c main_arg0) (((cfg0.win 25).blk t).view.emb (ix2 p q))
  rw [emb25 t p q, G_ix2]

/-- The 256 blocks of 1024 rows cover the result array: row `r` lies in block `r / 1024`. -/
theorem cover (i : S262144x4.Idx) :
    ∃ t : Fin cfg0.N, (cfg0.win 25).flush t = true ∧ i ∈ ((cfg0.win 25).blk t).view.set := by
  have hi0 : (i 0).val < 262144 := (i 0).isLt
  have hi1 : (i 1).val < 4 := (i 1).isLt
  let t : Fin cfg0.N := ⟨(i 0).val / 1024, by rw [show cfg0.N = 256 from N_0]; omega⟩
  refine ⟨t, flush0_25 t, ?_⟩
  show i ∈ ((View.whole main_v0).slice (win0_25.rect t)).set
  rw [View.set_slice_whole, Rect.mem_set_unit]
  obtain ⟨-, -, e0, e1⟩ := idx_rows t
  intro a
  match a with
  | ⟨0, _⟩ =>
    show win0_25.index t (0 : Fin 2) * 1024 ≤ (i 0).val ∧ (i 0).val < win0_25.index t (0 : Fin 2) * 1024 + 1024
    rw [e0]
    show (i 0).val / 1024 * 1024 ≤ (i 0).val ∧ (i 0).val < (i 0).val / 1024 * 1024 + 1024
    omega
  | ⟨1, _⟩ =>
    show win0_25.index t (1 : Fin 2) * 4 ≤ (i 1).val ∧ (i 1).val < win0_25.index t (1 : Fin 2) * 4 + 4
    rw [e1]
    omega

/-- THE ARRAY after the run is `G` of the arrays as the region finds them. -/
theorem final (c : Dev nD) : (dats m 0 c).arrAt 25 cfg0.N = G (.ofArrays (arrs m c)) (V m c main_arg0) :=
  (dats m 0 c).arrAt_eq_of_cover 25 (G (.ofArrays (arrs m c)) (V m c main_arg0)) (fun t _ => flushed_eq m c t) cover

end Cert.KernelIdeal.KerValue

end
-- ==== Proof.RefRows.lean ====
/-
  The reference program computes `G`: every row of its result is the network's row function of the same row of the input.

  The reference is a chain of whole-array host operations: slices of the input's columns, `dot_general`s, biases
  broadcast over the rows, maxima with zero, two joins along the columns, and the logistic function spelt out at the
  end. Each stage is read by rows with the lemmas of LibRows.lean, in program order, each from the one before: row `r` of
  a stage is the network's corresponding row function of row `r` of the input.
-/
import proofs.«156197_j78477642432658_1_alg».proof.Proof.Gen.ReferenceIdeal.Read
import proofs.«156197_j78477642432658_1_alg».proof.Proof.Spec

noncomputable section

namespace Cert.ReferenceIdeal.RefRows

open Cert.ReferenceIdeal Cert.ReferenceIdeal.Read Idealize.ShloMosaic Idealize.ShloMosaic.ValueIdx
open Cert.Rows Cert.NerfRows Cert.ReferenceIdeal.Facts₀

/-! ## The six products are plain -/

theorem plain_63_256 : PlainDot dot_S262144x63_S63x256_S262144x256_1_0_0_1_n_n :=
  ⟨rfl, rfl, lhs_main_v2_0, lhs_main_v2_1, rhs_main_v2_0, rhs_main_v2_1⟩
theorem plain_256_256 : PlainDot dot_S262144x256_S256x256_S262144x256_1_0_0_1_n_n :=
  ⟨rfl, rfl, lhs_main_v7_0, lhs_main_v7_1, rhs_main_v7_0, rhs_main_v7_1⟩
theorem plain_319_256 : PlainDot dot_S262144x319_S319x256_S262144x256_1_0_0_1_n_n :=
  ⟨rfl, rfl, lhs_main_v23_0, lhs_main_v23_1, rhs_main_v23_0, rhs_main_v23_1⟩
theorem plain_256_1 : PlainDot dot_S262144x256_S256x1_S262144x1_1_0_0_1_n_n :=
  ⟨rfl, rfl, lhs_main_v43_0, lhs_main_v43_1, rhs_main_v43_0, rhs_main_v43_1⟩
theorem plain_286_128 : PlainDot dot_S262144x286_S286x128_S262144x128_1_0_0_1_n_n :=
  ⟨rfl, rfl, lhs_main_v52_0, lhs_main_v52_1, rhs_main_v52_0, rhs_main_v52_1⟩
theorem plain_128_3 : PlainDot dot_S262144x128_S128x3_S262144x3_1_0_0_1_n_n :=
  ⟨rfl, rfl, lhs_main_v57_0, lhs_main_v57_1, rhs_main_v57_0, rhs_main_v57_1⟩

/-! ## The stages, by rows -/

variable (x0 : (⟨2, ![262144, 93]⟩ : Shape).Idx → EReal) (A : Arrays) (r : Fin 262144)

/-- The first slice is the position. -/
theorem v0_row : rowOf (val_main_v0 (F := Ideal) x0) r = xyz (rowOf x0 r) :=
  slice_cols_row 0 (by omega) x0 slices_S262144x93_S262144x63_0_0 r

/-- The second slice is the direction with the feature. -/
theorem v1_row : rowOf (val_main_v1 (F := Ideal) x0) r = dirfea (rowOf x0 r) :=
  slice_cols_row 63 (by omega) x0 slices_S262144x93_S262144x30_0_63 r

theorem v6_row : rowOf (val_main_v6 (F := Ideal) x0 A.a1 A.a2) r = h0 (.ofArrays A) (rowOf x0 r) :=
  plain_63_256.host_layer_row none (val_main_v0 (F := Ideal) x0) A.a1 A.a2 _ _ _ r _ (v0_row x0 r)

theorem v11_row : rowOf (val_main_v11 (F := Ideal) x0 A.a1 A.a2 A.a3 A.a4) r = h1 (.ofArrays A) (rowOf x0 r) :=
  plain_256_256.host_layer_row none (val_main_v6 (F := Ideal) x0 A.a1 A.a2) A.a3 A.a4 _ _ _ r _ (v6_row x0 A r)

theorem v16_row : rowOf (val_main_v16 (F := Ideal) x0 A.a1 A.a2 A.a3 A.a4 A.a5 A.a6) r = h2 (.ofArrays A) (rowOf x0 r) :=
  plain_256_256.host_layer_row none (val_main_v11 (F := Ideal) x0 A.a1 A.a2 A.a3 A.a4) A.a5 A.a6 _ _ _ r _ (v11_row x0 A r)

theorem v21_row : rowOf (val_main_v21 (F := Ideal) x0 A.a1 A.a2 A.a3 A.a4 A.a5 A.a6 A.a7 A.a8) r = h3 (.ofArrays A) (rowOf x0 r) :=
  plain_256_256.host_layer_row none (val_main_v16 (F := Ideal) x0 A.a1 A.a2 A.a3 A.a4 A.a5 A.a6) A.a7 A.a8 _ _ _ r _ (v16_row x0 A r)

/-- The position joined to the fourth layer's result. -/
theorem v22_row : rowOf (val_main_v22 (F := Ideal) x0 A.a1 A.a2 A.a3 A.a4 A.a5 A.a6 A.a7 A.a8) r
    = cat 319 (by omega) (xyz (rowOf x0 r)) (h3 (.ofArrays A) (rowOf x0 r)) := by
  rw [← v0_row x0 r, ← v21_row x0 A r]
  exact concat_cols_row 319 (by omega) (val_main_v0 (F := Ideal) x0)
    (val_main_v21 (F := Ideal) x0 A.a1 A.a2 A.a3 A.a4 A.a5 A.a6 A.a7 A.a8) concatenates_S262144x63_S262144x256_S262144x319_d1 r

theorem v27_row : rowOf (val_main_v27 (F := Ideal) x0 A.a1 A.a2 A.a3 A.a4 A.a5 A.a6 A.a7 A.a8 A.a9 A.a10) r = h4 (.ofArrays A) (rowOf x0 r) :=
  plain_319_256.host_layer_row none (val_main_v22 (F := Ideal) x0 A.a1 A.a2 A.a3 A.a4 A.a5 A.a6 A.a7 A.a8) A.a9 A.a10 _ _ _ r _ (v22_row x0 A r)

theorem v32_row : rowOf (val_main_v32 (F := Ideal) x0 A.a1 A.a2 A.a3 A.a4 A.a5 A.a6 A.a7 A.a8 A.a9 A.a10 A.a11 A.a12) r = h5 (.ofArrays A) (rowOf x0 r) :=
  plain_256_256.host_layer_row none (val_main_v27 (F := Ideal) x0 A.a1 A.a2 A.a3 A.a4 A.a5 A.a6 A.a7 A.a8 A.a9 A.a10) A.a11 A.a12 _ _ _ r _ (v27_row x0 A r)

theorem v37_row : rowOf (val_main_v37 (F := Ideal) x0 A.a1 A.a2 A.a3 A.a4 A.a5 A.a6 A.a7 A.a8 A.a9 A.a10 A.a11 A.a12 A.a13 A.a14) r = h6 (.ofArrays A) (rowOf x0 r) :=
  plain_256_256.host_layer_row none (val_main_v32 (F := Ideal) x0 A.a1 A.a2 A.a3 A.a4 A.a5 A.a6 A.a7 A.a8 A.a9 A.a10 A.a11 A.a12) A.a13 A.a14 _ _ _ r _ (v32_row x0 A r)

theorem v42_row : rowOf (val_main_v42 (F := Ideal) x0 A.a1 A.a2 A.a3 A.a4 A.a5 A.a6 A.a7 A.a8 A.a9 A.a10 A.a11 A.a12 A.a13 A.a14 A.a15 A.a16) r = h7 (.ofArrays A) (rowOf x0 r) :=
  plain_256_256.host_layer_row none (val_main_v37 (F := Ideal) x0 A.a1 A.a2 A.a3 A.a4 A.a5 A.a6 A.a7 A.a8 A.a9 A.a10 A.a11 A.a12 A.a13 A.a14) A.a15 A.a16 _ _ _ r _ (v37_row x0 A r)

/-- The density head. -/
theorem v46_row : rowOf (val_main_v46 (F := Ideal) x0 A.a1 A.a2 A.a3 A.a4 A.a5 A.a6 A.a7 A.a8 A.a9 A.a10 A.a11 A.a12 A.a13 A.a14 A.a15 A.a16 A.a21 A.a22) r = sigma (.ofArrays A) (rowOf x0 r) :=
  plain_256_1.host_linear_row none (val_main_v42 (F := Ideal) x0 A.a1 A.a2 A.a3 A.a4 A.a5 A.a6 A.a7 A.a8 A.a9 A.a10 A.a11 A.a12 A.a13 A.a14 A.a15 A.a16) A.a21 A.a22 _ _ r _ (v42_row x0 A r)

/-- The feature head. -/
theorem v50_row : rowOf (val_main_v50 (F := Ideal) x0 A.a1 A.a2 A.a3 A.a4 A.a5 A.a6 A.a7 A.a8 A.a9 A.a10 A.a11 A.a12 A.a13 A.a14 A.a15 A.a16 A.a17 A.a18) r = xyzf (.ofArrays A) (rowOf x0 r) :=
  plain_256_256.host_linear_row none (val_main_v42 (F := Ideal) x0 A.a1 A.a2 A.a3 A.a4 A.a5 A.a6 A.a7 A.a8 A.a9 A.a10 A.a11 A.a12 A.a13 A.a14 A.a15 A.a16) A.a17 A.a18 _ _ r _ (v42_row x0 A r)

/-- The feature joined to the direction. -/
theorem v51_row : rowOf (val_main_v51 (F := Ideal) x0 A.a1 A.a2 A.a3 A.a4 A.a5 A.a6 A.a7 A.a8 A.a9 A.a10 A.a11 A.a12 A.a13 A.a14 A.a15 A.a16 A.a17 A.a18) r
    = cat 286 (by omega) (xyzf (.ofArrays A) (rowOf x0 r)) (dirfea (rowOf x0 r)) := by
  rw [← v1_row x0 r, ← v50_row x0 A r]
  exact concat_cols_row 286 (by omega)
    (val_main_v50 (F := Ideal) x0 A.a1 A.a2 A.a3 A.a4 A.a5 A.a6 A.a7 A.a8 A.a9 A.a10 A.a11 A.a12 A.a13 A.a14 A.a15 A.a16 A.a17 A.a18)
    (val_main_v1 (F := Ideal) x0) concatenates_S262144x256_S262144x30_S262144x286_d1 r

/-- The direction layer. -/
theorem v56_row : rowOf (val_main_v56 (F := Ideal) x0 A.a1 A.a2 A.a3 A.a4 A.a5 A.a6 A.a7 A.a8 A.a9 A.a10 A.a11 A.a12 A.a13 A.a14 A.a15 A.a16 A.a17 A.a18 A.a19 A.a20) r = dfeat (.ofArrays A) (rowOf x0 r) :=
  plain_286_128.host_layer_row none (val_main_v51 (F := Ideal) x0 A.a1 A.a2 A.a3 A.a4 A.a5 A.a6 A.a7 A.a8 A.a9 A.a10 A.a11 A.a12 A.a13 A.a14 A.a15 A.a16 A.a17 A.a18) A.a19 A.a20 _ _ _ r _ (v51_row x0 A r)

/-- The colour head before the logistic function. -/
theorem v60_row : rowOf (val_main_v60 (F := Ideal) x0 A.a1 A.a2 A.a3 A.a4 A.a5 A.a6 A.a7 A.a8 A.a9 A.a10 A.a11 A.a12 A.a13 A.a14 A.a15 A.a16 A.a17 A.a18 A.a19 A.a20 A.a23 A.a24) r
    = dense (dfeat (.ofArrays A) (rowOf x0 r)) (mat A.a23) (vec A.a24) :=
  plain_128_3.host_linear_row none (val_main_v56 (F := Ideal) x0 A.a1 A.a2 A.a3 A.a4 A.a5 A.a6 A.a7 A.a8 A.a9 A.a10 A.a11 A.a12 A.a13 A.a14 A.a15 A.a16 A.a17 A.a18 A.a19 A.a20) A.a23 A.a24 _ _ r _ (v56_row x0 A r)

/-- The colour head: one over one plus the exponential of the negation is the logistic function. -/
theorem v66_row : rowOf (val_main_v66 (F := Ideal) x0 A.a1 A.a2 A.a3 A.a4 A.a5 A.a6 A.a7 A.a8 A.a9 A.a10 A.a11 A.a12 A.a13 A.a14 A.a15 A.a16 A.a17 A.a18 A.a19 A.a20 A.a23 A.a24) r = rgb (.ofArrays A) (rowOf x0 r) := by
  refine (host_logistic_row (val_main_v60 (F := Ideal) x0 A.a1 A.a2 A.a3 A.a4 A.a5 A.a6 A.a7 A.a8 A.a9 A.a10 A.a11 A.a12 A.a13 A.a14 A.a15 A.a16 A.a17 A.a18 A.a19 A.a20 A.a23 A.a24) bcast_S_S262144x3 r).trans ?_
  rw [v60_row x0 A r]
  rfl

/-- The result: colour joined to density. -/
theorem v67_row : rowOf (val_main_v67 (F := Ideal) x0 A.a1 A.a2 A.a3 A.a4 A.a5 A.a6 A.a7 A.a8 A.a9 A.a10 A.a11 A.a12 A.a13 A.a14 A.a15 A.a16 A.a17 A.a18 A.a19 A.a20 A.a21 A.a22 A.a23 A.a24) r = out (.ofArrays A) (rowOf x0 r) := by
  unfold out
  rw [← v66_row x0 A r, ← v46_row x0 A r]
  exact concat_cols_row 4 (by omega)
    (val_main_v66 (F := Ideal) x0 A.a1 A.a2 A.a3 A.a4 A.a5 A.a6 A.a7 A.a8 A.a9 A.a10 A.a11 A.a12 A.a13 A.a14 A.a15 A.a16 A.a17 A.a18 A.a19 A.a20 A.a23 A.a24)
    (val_main_v46 (F := Ideal) x0 A.a1 A.a2 A.a3 A.a4 A.a5 A.a6 A.a7 A.a8 A.a9 A.a10 A.a11 A.a12 A.a13 A.a14 A.a15 A.a16 A.a21 A.a22)
    concatenates_S262144x3_S262144x1_S262144x4_d1 r

/-- The reference's result array is `G` of its arguments. -/
theorem result_eq : val_main_v67 (F := Ideal) x0 A.a1 A.a2 A.a3 A.a4 A.a5 A.a6 A.a7 A.a8 A.a9 A.a10 A.a11 A.a12 A.a13 A.a14 A.a15 A.a16 A.a17 A.a18 A.a19 A.a20 A.a21 A.a22 A.a23 A.a24
    = G (.ofArrays A) x0 := by
  funext i
  rw [eq_ix2 i]
  exact congrFun (v67_row x0 A (i 0)) (i 1)

end Cert.ReferenceIdeal.RefRows

end
-- ==== Proof.lean ====
/-
  The certificate of the dense network kernel against its jnp reference.

  Both programs apply one and the same function to every row of the input: eight activated dense layers with a skip
  connection, a density head, a feature head, a direction layer and a colour head under the logistic function
  (Proof/Spec.lean). The kernel does it block by block, 1024 rows at a grid point, its matrix operands narrowed to bf16
  (the identity at the ideal values) and the logistic function as one operation; the reference does it on the whole
  arrays, the logistic function spelt out as one over one plus the exponential of the negation. At the ideal values a
  row of a product is the same sum over the contracted coordinate on both sides, in the same order, so no law of
  the extended reals beyond that is used and the precondition is never opened.

  The kernel's frames are the generated ones; the reference's frame is its generated run with the result dropped;
  the ideal pass made no rewrite, so `preserves` is `True`; `algebraic` sets the kernel's run, with its result array
  read as `G` (Proof/KerValue.lean), beside the reference's run, whose result term is `G` (Proof/RefRows.lean).
-/
import proofs.«156197_j78477642432658_1_alg».proof.Defs
import proofs.«156197_j78477642432658_1_alg».proof.Proof.Gen.Kernel
import proofs.«156197_j78477642432658_1_alg».proof.Proof.Gen.Kernel.Skeleton
import proofs.«156197_j78477642432658_1_alg».proof.Proof.Gen.Kernel.Launch
import proofs.«156197_j78477642432658_1_alg».proof.Proof.Gen.Kernel.Points
import proofs.«156197_j78477642432658_1_alg».proof.Proof.Gen.Kernel.Frame
import proofs.«156197_j78477642432658_1_alg».proof.Proof.Gen.KernelIdeal
import proofs.«156197_j78477642432658_1_alg».proof.Proof.Gen.KernelIdeal.Skeleton
import proofs.«156197_j78477642432658_1_alg».proof.Proof.Gen.KernelIdeal.Launch
import proofs.«156197_j78477642432658_1_alg».proof.Proof.Gen.KernelIdeal.Points
import proofs.«156197_j78477642432658_1_alg».proof.Proof.Gen.KernelIdeal.Frame
import proofs.«156197_j78477642432658_1_alg».proof.Proof.Gen.ReferenceIdeal
import proofs.«156197_j78477642432658_1_alg».proof.Proof.Gen.Pre_finite_inputs
import proofs.«156197_j78477642432658_1_alg».proof.Proof.Gen.KernelIdeal.Value
import proofs.«156197_j78477642432658_1_alg».proof.Proof.Gen.ReferenceIdeal.Run
import proofs.«156197_j78477642432658_1_alg».proof.Proof.Gen.ReferenceIdeal.Read
import proofs.«156197_j78477642432658_1_alg».proof.Proof.KerValue
import proofs.«156197_j78477642432658_1_alg».proof.Proof.RefRows
import Idealize.ShloMosaic.Adequacy
import Idealize.ShloMosaic.Init

noncomputable section

namespace Cert.Proof

open Idealize.ShloMosaic Idealize.SL.Sem Cert.NerfRows

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the kernel's argument arrays. -/
theorem algebraic : Cert.algebraic_KernelIdeal_ReferenceIdeal := by
  intro m ρ m' ρ' _ hagree
  refine ⟨fun c => G (.ofArrays (Cert.KernelIdeal.KerValue.arrs m c)) (Cert.KernelIdeal.Gen.V m c Cert.KernelIdeal.main_arg0), ?_, ?_⟩
  · exact (θ_run Cert.KernelIdeal.defs _ _).mono
      (fun r h c => ⟨(h c).1.trans (Cert.KernelIdeal.KerValue.final m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v67_eq]
    obtain ⟨e0, e1, e2, e3, e4, e5, e6, e7, e8, e9, e10, e11, e12, e13, e14, e15, e16, e17, e18, e19, e20, e21, e22, e23, e24⟩ := hagree c
    rw [e0, e1, e2, e3, e4, e5, e6, e7, e8, e9, e10, e11, e12, e13, e14, e15, e16, e17, e18, e19, e20, e21, e22, e23, e24]
    exact Cert.ReferenceIdeal.RefRows.result_eq (Cert.KernelIdeal.Gen.V m c Cert.KernelIdeal.main_arg0) (Cert.KernelIdeal.KerValue.arrs m c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
